-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S64x40 .f32) (main_arg5 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg4
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : FVec F S1600000 .f32) (main_arg2 : FVec F S512x64 .f32) (main_arg3 : FVec F S64 .f32) (main_arg4 : FVec F S64x40 .f32) (main_arg5 : FVec F S40 .f32) (main_arg6 : IVec S1600000 32) (main_arg7 : IVec S1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x512 : Shape := ⟨2, ![100000, 512]⟩
abbrev S1600000 : Shape := ⟨1, ![1600000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S2000x512 : Shape := ⟨2, ![2000, 512]⟩
abbrev S2000x64 : Shape := ⟨2, ![2000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S100000x40 : Shape := ⟨2, ![100000, 40]⟩
abbrev S2000x40 : Shape := ⟨2, ![2000, 40]⟩
abbrev S1600000x40 : Shape := ⟨2, ![1600000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 45
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S1600000, .f32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1600000, .i32⟩
  | .hbm, ⟨7, _⟩ => ⟨S1600000, .i32⟩
  | .hbm, ⟨8, _⟩ => ⟨S100000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1x64, .f32⟩
  | .hbm, ⟨26, _⟩ => ⟨S100000x40, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x40, .f32⟩
  | .hbm, ⟨37, _⟩ => ⟨S1600000x40, .f32⟩
  | .hbm, ⟨38, _⟩ => ⟨S1600000x40, .f32⟩
  | .hbm, ⟨39, _⟩ => ⟨S_, .f32⟩
  | .hbm, ⟨40, _⟩ => ⟨S100000x40, .f32⟩
  | .hbm, ⟨41, _⟩ => ⟨S1600000x1, .i32⟩
  | .hbm, ⟨42, _⟩ => ⟨S100000x40, .f32⟩
  | .hbm, ⟨43, _⟩ => ⟨S1x40, .f32⟩
  | .hbm, ⟨44, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  dot_S2000x512_S512x64_S2000x64_1_0_0_1_n_n_wf : DotDims.WF S2000x512 S512x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x40_S2000x40_1_0_0_1_n_n_wf : DotDims.WF S2000x64 S64x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S100000x40.size a
  hwx1_3 : ∀ i : grid1.Coords, EltTy.bits .f32 = 32 ∨ (Rect.block (s := S100000x40) S2000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .f32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1600000, .i32⟩
  | .hbm, ⟨7, _⟩ => ⟨S1600000, .i32⟩
  | .hbm, ⟨8, _⟩ => ⟨S100000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x40, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x40, .f32⟩
  | .hbm, ⟨42, _⟩ => ⟨S1600000x40, .f32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S1x40, .f32⟩
  | .hbm, ⟨49, _⟩ => ⟨S100000x40, .f32⟩
  | .hbm, ⟨50, _⟩ => ⟨S100000x40, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x40, .f32⟩
  | .hbm, ⟨58, _⟩ => ⟨S100000x40, .f32⟩
  | .hbm, ⟨59, _⟩ => ⟨S100000x40, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S100000x1, .f32⟩
  | .hbm, ⟨64, _⟩ => ⟨S100000x40, .f32⟩
  | .hbm, ⟨65, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  The two-layer graph convolution as whole-array functions over the extended reals, index by index.
  A dense layer is a row-by-column sum of products; the second dense layer first adds the bias to the
  aggregated features and clamps at zero; the last step is a row-wise log-softmax of the aggregated
  scores plus bias: each entry minus the row's maximum, minus the logarithm of the row's sum of
  exponentials of the shifted entries.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- First dense layer: entry (p, q) of x · W is the sum over the 512 features of x[p, k] · W[k, q]. -/
def dense1 (x : FVec Ideal ⟨2, ![100000, 512]⟩ .f32) (W : FVec Ideal ⟨2, ![512, 64]⟩ .f32) :
    FVec Ideal ⟨2, ![100000, 64]⟩ .f32 :=
  fun i => ∑ k : Fin 512, x (ix2 (i 0) k) * W (ix2 k (i 1))

theorem dense1_apply (x : FVec Ideal ⟨2, ![100000, 512]⟩ .f32) (W : FVec Ideal ⟨2, ![512, 64]⟩ .f32)
    (p : Fin 100000) (q : Fin 64) :
    dense1 x W (ix2 p q) = ∑ k : Fin 512, x (ix2 p k) * W (ix2 k q) := rfl

/-- Second dense layer on the aggregated hidden features: entry (p, q) is the sum over the 64 hidden
    units of max(s[p, k] + b[k], 0) · W[k, q]. -/
def dense2 (s : FVec Ideal ⟨2, ![100000, 64]⟩ .f32) (b : FVec Ideal ⟨1, ![64]⟩ .f32)
    (W : FVec Ideal ⟨2, ![64, 40]⟩ .f32) : FVec Ideal ⟨2, ![100000, 40]⟩ .f32 :=
  fun i => ∑ k : Fin 64, max (s (ix2 (i 0) k) + b (ix1 k)) (Ideal.ofBits .f32 0x00000000#32) * W (ix2 k (i 1))

theorem dense2_apply (s : FVec Ideal ⟨2, ![100000, 64]⟩ .f32) (b : FVec Ideal ⟨1, ![64]⟩ .f32)
    (W : FVec Ideal ⟨2, ![64, 40]⟩ .f32) (p : Fin 100000) (q : Fin 40) :
    dense2 s b W (ix2 p q)
      = ∑ k : Fin 64, max (s (ix2 p k) + b (ix1 k)) (Ideal.ofBits .f32 0x00000000#32) * W (ix2 k q) := rfl

/-- Row p of the biased scores: z[j] = s[p, j] + b[j]. -/
def scoreRow (s : FVec Ideal ⟨2, ![100000, 40]⟩ .f32) (b : FVec Ideal ⟨1, ![40]⟩ .f32) (p : Fin 100000) :
    Fin 40 → EReal := fun j => s (ix2 p j) + b (ix1 j)

/-- The largest entry of a row of 40 scores (from the bottom element). -/
def rowMax (z : Fin 40 → EReal) : EReal :=
  (Finset.univ : Finset (Fin 40)).fold max (Ideal.ofBits .f32 0xFF800000#32) z

/-- Log-softmax of one row at one class: (z[q] − max z) − log Σ_j exp(z[j] − max z). -/
def rowLogSoftmax (z : Fin 40 → EReal) (q : Fin 40) : EReal :=
  (z q - rowMax z) - Ideal.log (∑ j : Fin 40, Ideal.exp (z j - rowMax z))

/-- The output: row-wise log-softmax of the aggregated class scores plus bias. -/
def logSoftmax (s : FVec Ideal ⟨2, ![100000, 40]⟩ .f32) (b : FVec Ideal ⟨1, ![40]⟩ .f32) :
    FVec Ideal ⟨2, ![100000, 40]⟩ .f32 :=
  fun i => rowLogSoftmax (scoreRow s b (i 0)) (i 1)

theorem logSoftmax_apply (s : FVec Ideal ⟨2, ![100000, 40]⟩ .f32) (b : FVec Ideal ⟨1, ![40]⟩ .f32)
    (p : Fin 100000) (q : Fin 40) :
    logSoftmax s b (ix2 p q) = rowLogSoftmax (scoreRow s b p) q := rfl

end Cert.Gcn

end
-- ==== Proof.Dense1.lean ====
/-
  First dense layer, read off the tiled kernel. The rows are cut into 50 tiles of 2000; at tile t the
  kernel multiplies rows 2000·t … 2000·t+1999 of x with the whole of W. Entry (p, q) of a tile's
  product is the sum over the 512 features of x[2000·t + p, k] · W[k, q] (the narrowing of the
  operands is the identity on extended reals and the accumulator starts at zero), so each tile written
  back is the matching block of x · W, and the 50 tiles cover every row: the array after the call is
  x · W.
-/
import proofs.«132533_j27427661152789_1_alg».proof.Proof.Gen.KernelIdeal.Frame
import proofs.«132533_j27427661152789_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat)

abbrev dotRec := dot_S2000x512_S512x64_S2000x64_1_0_0_1_n_n

theorem origin : (![0, 0] : Fin 2 → Nat) = fun _ => 0 := funext fun a => by fin_cases a <;> rfl

/-! ## The product's operand indices, axis by axis -/

theorem lhs_axis0 (i : S2000x64.Idx) (q : dot_S2000x512_S512x64_S2000x64_1_0_0_1_n_n.contr.Idx) :
    (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
theorem lhs_axis1 (i : S2000x64.Idx) (q : dot_S2000x512_S512x64_S2000x64_1_0_0_1_n_n.contr.Idx) :
    (dot_S2000x512_S512x64_S2000x64_1_0_0_1_n_n.lhsIdx i q 1).val = (q ⟨0, by decide⟩).val :=
  dot_S2000x512_S512x64_S2000x64_1_0_0_1_n_n.lhsIdx_val_of_single rfl i q
theorem rhs_axis0 (i : S2000x64.Idx) (q : dot_S2000x512_S512x64_S2000x64_1_0_0_1_n_n.contr.Idx) :
    (dot_S2000x512_S512x64_S2000x64_1_0_0_1_n_n.rhsIdx i q 0).val = (q ⟨0, by decide⟩).val :=
  dot_S2000x512_S512x64_S2000x64_1_0_0_1_n_n.rhsIdx_val_of_single rfl i q
theorem rhs_axis1 (i : S2000x64.Idx) (q : dot_S2000x512_S512x64_S2000x64_1_0_0_1_n_n.contr.Idx) :
    (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- One tile's product at (p, q): the sum over the features of x-tile[p, k] · W[k, q]. -/
theorem tile_apply (x0 : Vec Ideal S2000x512 .f32) (x1 : Vec Ideal S512x64 .f32) (p : Fin 2000) (q : Fin 64) :
    k0_pay1 (F := Ideal) x0 x1 (ix2 p q) = ∑ k : Fin 512, x0 (ix2 p k) * x1 (ix2 k q) := by
  unfold k0_pay1
  simp only [matmul]
  refine (Ideal.matmul_constant_zero_apply dot_S2000x512_S512x64_S2000x64_1_0_0_1_n_n none (truncf .bf16 x0 bitsLt_bf16_f32) (truncf .bf16 x1 bitsLt_bf16_f32) (ix2 p q)).trans ?_
  rw [← Equiv.sum_comp (ValueIdx.contrEquiv1 dot_S2000x512_S512x64_S2000x64_1_0_0_1_n_n 512 rfl rfl).symm]
  refine Finset.sum_congr rfl fun k _ => ?_
  have hk := ValueIdx.contrEquiv1_symm_val dot_S2000x512_S512x64_S2000x64_1_0_0_1_n_n 512 rfl rfl k
  have el : dot_S2000x512_S512x64_S2000x64_1_0_0_1_n_n.lhsIdx (ix2 p q) ((ValueIdx.contrEquiv1 dot_S2000x512_S512x64_S2000x64_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2000x512_S512x64_S2000x64_1_0_0_1_n_n.rhsIdx (ix2 p q) ((ValueIdx.contrEquiv1 dot_S2000x512_S512x64_S2000x64_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]
  rfl

/-- A tile whose rows are rows of x and whose second operand is W holds, at (p, q), entry i of x · W, where
    i is the array index the tile's (p, q) sits at. -/
theorem tile_eq (X : Vec Ideal S100000x512 .f32) (W : Vec Ideal S512x64 .f32) (x0 : Vec Ideal S2000x512 .f32)
    (x1 : Vec Ideal S512x64 .f32) (p : Fin 2000) (q : Fin 64) (i : S100000x64.Idx)
    (hx : ∀ k : Fin 512, x0 (ix2 p k) = X (ix2 (i 0) k)) (hw : ∀ k : Fin 512, x1 (ix2 k q) = W (ix2 k (i 1))) :
    k0_pay1 (F := Ideal) x0 x1 (ix2 p q) = Cert.Gcn.dense1 X W i := by
  refine (tile_apply x0 x1 p q).trans ?_
  show _ = ∑ k : Fin 512, X (ix2 (i 0) k) * W (ix2 k (i 1))
  exact Finset.sum_congr rfl fun k _ => by rw [hx k, hw k]

/-! ## From tiles to the array -/

variable (V : (c : Dev nD) → (b : Ref sig .tc) → Buf (Elt Ideal) ((c : Thread nD τ).loc b))

/-- The index maps over the 50 tiles: x and the result move with the tile down the rows, W stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile t writes back is block t of x · W. -/
theorem flushed_eq (c : Dev nD) (t : Fin cfg0.N) :
    (dat0 V c).flushed 2 t = ((cfg0.win 2).blk t).view.read (Elt Ideal) (Cert.Gcn.dense1 (V c main_arg0) (V c main_arg2)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x64) origin]
  obtain ⟨e0, e1, e2, e3, e4, e5⟩ := idx_facts t
  funext j
  show k0_pay1 (iblk0 V c 0 t) (iblk0 V c 1 t) j = Cert.Gcn.dense1 (V c main_arg0) (V c main_arg2) (((cfg0.win 2).blk t).view.emb j)
  obtain ⟨p, q, rfl⟩ : ∃ (p : Fin 2000) (q : Fin 64), j = ix2 p q := ⟨j 0, j 1, eq_ix2 j⟩
  refine tile_eq (V c main_arg0) (V c main_arg2) (iblk0 V c 0 t) (iblk0 V c 1 t) p q (((cfg0.win 2).blk t).view.emb (ix2 p q)) (fun k => ?_) (fun k => ?_)
  · unfold iblk0
    rw [View.read_apply]
    show V c main_arg0 _ = V c main_arg0 _
    congr 1
    funext a
    apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  · unfold iblk0
    rw [View.read_apply]
    show V c main_arg2 _ = V c main_arg2 _
    congr 1
    funext a
    apply Fin.ext
    match a with
    | ⟨0, _⟩ => show win0_1.index t (0 : Fin 2) * 512 + 1 * k.val = k.val; omega
    | ⟨1, _⟩ => show win0_1.index t (1 : Fin 2) * 64 + 1 * q.val = win0_2.index t (1 : Fin 2) * 64 + 1 * q.val; omega

/-- An index of the array lies in tile t's block iff each coordinate lies in the block's range. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Row r lies in tile r / 2000: the tiles cover the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 2000 < 50 := by omega
  obtain ⟨e0, e1, e2, e3, e4, e5⟩ := idx_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, hlt⟩ (1 : Fin 2) * 64 ≤ (i 1).val ∧ (i 1).val < win0_2.index ⟨(i 0).val / 2000, hlt⟩ (1 : Fin 2) * 64 + 64
    rw [e5]
    omega

/-- The array after the first call is x · W, whatever the call found in the other buffers. -/
theorem final (c : Dev nD) :
    (dat0 V c).arrAt 2 cfg0.N = Cert.Gcn.dense1 (V c main_arg0) (V c main_arg2) :=
  (dat0 V c).arrAt_eq_of_cover 2 (Cert.Gcn.dense1 (V c main_arg0) (V c main_arg2)) (fun t _ => flushed_eq V c t) cover

end Cert.KernelIdeal.Dense1

end
-- ==== Proof.Dense2.lean ====
/-
  Second dense layer, read off the tiled kernel. At tile t the kernel takes rows 2000·t … 2000·t+1999 of the
  aggregated hidden features, adds the bias row, clamps at zero and multiplies with the whole 64 × 40 weight.
  Entry (p, q) of a tile's result is the sum over the 64 hidden units of max(s[2000·t + p, k] + b[k], 0) · W[k, q];
  the 50 tiles cover every row, so the array after the call is that function of s, b and W.
-/
import proofs.«132533_j27427661152789_1_alg».proof.Proof.Gen.KernelIdeal.Frame
import proofs.«132533_j27427661152789_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.ValueIdx
open Idealize.ShloMosaic.Pipeline (Dat)

theorem origin : (![0, 0] : Fin 2 → Nat) = fun _ => 0 := funext fun a => by fin_cases a <;> rfl

/-! ## The product's operand indices, axis by axis -/

theorem lhs_axis0 (i : S2000x40.Idx) (q : dot_S2000x64_S64x40_S2000x40_1_0_0_1_n_n.contr.Idx) :
    (dot_S2000x64_S64x40_S2000x40_1_0_0_1_n_n.lhsIdx i q 0).val = (i 0).val := by
  unfold DotDims.lhsIdx
  rw [dif_neg (show ¬(0 : Fin S2000x64.rank) ∈ dot_S2000x64_S64x40_S2000x40_1_0_0_1_n_n.lhsBatch by decide), dif_pos (show (0 : Fin S2000x64.rank) ∈ dot_S2000x64_S64x40_S2000x40_1_0_0_1_n_n.lhsNonContracting by decide)]
  rfl
theorem lhs_axis1 (i : S2000x40.Idx) (q : dot_S2000x64_S64x40_S2000x40_1_0_0_1_n_n.contr.Idx) :
    (dot_S2000x64_S64x40_S2000x40_1_0_0_1_n_n.lhsIdx i q 1).val = (q ⟨0, by decide⟩).val :=
  dot_S2000x64_S64x40_S2000x40_1_0_0_1_n_n.lhsIdx_val_of_single rfl i q
theorem rhs_axis0 (i : S2000x40.Idx) (q : dot_S2000x64_S64x40_S2000x40_1_0_0_1_n_n.contr.Idx) :
    (dot_S2000x64_S64x40_S2000x40_1_0_0_1_n_n.rhsIdx i q 0).val = (q ⟨0, by decide⟩).val :=
  dot_S2000x64_S64x40_S2000x40_1_0_0_1_n_n.rhsIdx_val_of_single rfl i q
theorem rhs_axis1 (i : S2000x40.Idx) (q : dot_S2000x64_S64x40_S2000x40_1_0_0_1_n_n.contr.Idx) :
    (dot_S2000x64_S64x40_S2000x40_1_0_0_1_n_n.rhsIdx i q 1).val = (i 1).val := by
  unfold DotDims.rhsIdx
  rw [dif_neg (show ¬(1 : Fin S64x40.rank) ∈ dot_S2000x64_S64x40_S2000x40_1_0_0_1_n_n.rhsBatch by decide), dif_pos (show (1 : Fin S64x40.rank) ∈ dot_S2000x64_S64x40_S2000x40_1_0_0_1_n_n.rhsNonContracting by decide)]
  rfl

/-- One tile's result at (p, q): the sum over the hidden units of max(s-tile[p, k] + b[0, k], 0) · W[k, q]. -/
theorem tile_apply (x0 : Vec Ideal S2000x64 .f32) (x1 : Vec Ideal S1x64 .f32) (x2 : Vec Ideal S64x40 .f32)
    (p : Fin 2000) (q : Fin 40) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  simp only [matmul, shapeCast_self]
  rw [Ideal.matmul_constant_zero_apply]
  rw [← Equiv.sum_comp (ValueIdx.contrEquiv1 dot_S2000x64_S64x40_S2000x40_1_0_0_1_n_n 64 rfl rfl).symm]
  refine Finset.sum_congr rfl fun k _ => ?_
  have hk := ValueIdx.contrEquiv1_symm_val dot_S2000x64_S64x40_S2000x40_1_0_0_1_n_n 64 rfl rfl k
  have el : dot_S2000x64_S64x40_S2000x40_1_0_0_1_n_n.lhsIdx (ix2 p q) ((ValueIdx.contrEquiv1 dot_S2000x64_S64x40_S2000x40_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S2000x64_S64x40_S2000x40_1_0_0_1_n_n.rhsIdx (ix2 p q) ((ValueIdx.contrEquiv1 dot_S2000x64_S64x40_S2000x40_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]
  show max (x0 (ix2 p k) + broadcastTo S2000x64 x1 broadcasts_S1x64_S2000x64 (ix2 p k)) (Ideal.ofBits .f32 0x00000000#32) * x2 (ix2 k q) = _
  rw [broadcastTo_1b_ab_apply x1 broadcasts_S1x64_S2000x64 p k]

/-- A tile whose rows are rows of s, whose bias row is b and whose weight is W holds, at (p, q), entry i of the
    second dense layer, where i is the array index the tile's (p, q) sits at. -/
theorem tile_eq (S : Vec Ideal S100000x64 .f32) (B : Vec Ideal S64 .f32) (W : Vec Ideal S64x40 .f32)
    (x0 : Vec Ideal S2000x64 .f32) (x1 : Vec Ideal S1x64 .f32) (x2 : Vec Ideal S64x40 .f32)
    (p : Fin 2000) (q : Fin 40) (i : S100000x40.Idx)
    (hs : ∀ k : Fin 64, x0 (ix2 p k) = S (ix2 (i 0) k)) (hb : ∀ k : Fin 64, x1 (ix2 (0 : Fin 1) k) = B (ix1 k))
    (hw : ∀ k : Fin 64, x2 (ix2 k q) = W (ix2 k (i 1))) :
    k1_pay1 (F := Ideal) x0 x1 x2 (ix2 p q) = Cert.Gcn.dense2 S B W i := by
  refine (tile_apply x0 x1 x2 p q).trans ?_
  show _ = ∑ k : Fin 64, max (S (ix2 (i 0) k) + B (ix1 k)) (Ideal.ofBits .f32 0x00000000#32) * W (ix2 k (i 1))
  exact Finset.sum_congr rfl fun k _ => by rw [hs k, hb k, hw k]

/-! ## From tiles to the array -/

variable (V : (c : Dev nD) → (b : Ref sig .tc) → Buf (Elt Ideal) ((c : Thread nD τ).loc b))

/-- The index maps over the 50 tiles: s and the result move with the tile down the rows, the bias row and W stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What tile t writes back is block t of the second dense layer of the arrays the call finds, for any bias
    vector B whose row form the call's second operand is. -/
theorem flushed_eq (c : Dev nD) (B : Vec Ideal S64 .f32)
    (hB : ∀ k : Fin 64, V c main_v14 (ix2 (0 : Fin 1) k) = B (ix1 k)) (t : Fin cfg1.N) :
    (dat1 V c).flushed 3 t = ((cfg1.win 3).blk t).view.read (Elt Ideal) (Cert.Gcn.dense2 (V c main_v13) B (V c main_arg4)) := by
  show (cfg1.win 3).cut (grid1.coords t) ((dat1 V c).after 3 t) = _
  rw [after1_3]
  unfold out1_3
  rw [View.canon_unit_zero origin]
  simp only [View.ld_unit_zero (S := S2000x64) origin, View.ld_unit_zero (S := S1x64) origin, View.ld_unit_zero (S := S64x40) origin]
  obtain ⟨e0, e1, e2, e3, e4, e5, e6, e7⟩ := idx_facts t
  funext j
  show k1_pay1 (iblk1 V c 0 t) (iblk1 V c 1 t) (iblk1 V c 2 t) j = Cert.Gcn.dense2 (V c main_v13) B (V c main_arg4) (((cfg1.win 3).blk t).view.emb j)
  obtain ⟨p, q, rfl⟩ : ∃ (p : Fin 2000) (q : Fin 40), j = ix2 p q := ⟨j 0, j 1, eq_ix2 j⟩
  refine tile_eq (V c main_v13) B (V c main_arg4) (iblk1 V c 0 t) (iblk1 V c 1 t) (iblk1 V c 2 t) p q (((cfg1.win 3).blk t).view.emb (ix2 p q)) (fun k => ?_) (fun k => ?_) (fun k => ?_)
  · unfold iblk1
    rw [View.read_apply]
    show V c main_v13 _ = V c main_v13 _
    congr 1
    funext a
    apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 64 + 1 * k.val = k.val; omega
  · refine Eq.trans ?_ (hB k)
    unfold iblk1
    rw [View.read_apply]
    show V c main_v14 _ = V c main_v14 _
    congr 1
    funext a
    apply Fin.ext
    match a with
    | ⟨0, _⟩ => show win1_1.index t (0 : Fin 2) * 1 + 1 * 0 = 0; omega
    | ⟨1, _⟩ => show win1_1.index t (1 : Fin 2) * 64 + 1 * k.val = k.val; omega
  · unfold iblk1
    rw [View.read_apply]
    show V c main_arg4 _ = V c main_arg4 _
    congr 1
    funext a
    apply Fin.ext
    match a with
    | ⟨0, _⟩ => show win1_2.index t (0 : Fin 2) * 64 + 1 * k.val = k.val; omega
    | ⟨1, _⟩ => show win1_2.index t (1 : Fin 2) * 40 + 1 * q.val = win1_3.index t (1 : Fin 2) * 40 + 1 * q.val; omega

/-- An index of the array lies in tile t's block iff each coordinate lies in the block's range. -/
theorem mem_blk (t : Fin cfg1.N) (i : S100000x40.Idx) :
    i ∈ ((cfg1.win 3).blk t).view.set ↔ ∀ a : Fin 2, win1_3.index t a * S2000x40.size a ≤ (i a).val ∧ (i a).val < win1_3.index t a * S2000x40.size a + S2000x40.size a := by
  show i ∈ ((View.whole main_v15).slice (win1_3.rect t)).set ↔ _
  rw [View.set_slice_whole, Rect.mem_set_unit]
  exact Iff.rfl

/-- Row r lies in tile r / 2000: the tiles cover the array. -/
theorem cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hlt : (i 0).val / 2000 < 50 := by omega
  obtain ⟨e0, e1, e2, e3, e4, e5, e6, e7⟩ := idx_facts ⟨(i 0).val / 2000, hlt⟩
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win1_3.index ⟨(i 0).val / 2000, hlt⟩ (1 : Fin 2) * 40 ≤ (i 1).val ∧ (i 1).val < win1_3.index ⟨(i 0).val / 2000, hlt⟩ (1 : Fin 2) * 40 + 40
    rw [e7]
    omega

/-- The array after the second call is the second dense layer of the aggregated features it finds, the bias
    and the weight. -/
theorem final (c : Dev nD) (B : Vec Ideal S64 .f32)
    (hB : ∀ k : Fin 64, V c main_v14 (ix2 (0 : Fin 1) k) = B (ix1 k)) :
    (dat1 V c).arrAt 3 cfg1.N = Cert.Gcn.dense2 (V c main_v13) B (V c main_arg4) :=
  (dat1 V c).arrAt_eq_of_cover 3 (Cert.Gcn.dense2 (V c main_v13) B (V c main_arg4)) (fun t _ => flushed_eq V c B hB t) cover

end Cert.KernelIdeal.Dense2

end
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LogSoftmax.lean ====
/-
  The row-wise log-softmax, read off the tiled kernel. At tile t the kernel takes rows 2000·t … 2000·t+1999 of the
  aggregated class scores, adds the bias row, and for each row subtracts the row's maximum and then the logarithm of
  the row's sum of exponentials of the shifted scores. Entry (p, q) of a tile depends on row 2000·t + p only; the 50
  tiles cover every row, so the array after the call is the log-softmax of scores plus bias, row by row.
-/
import proofs.«132533_j27427661152789_1_alg».proof.Proof.Gen.KernelIdeal.Frame
import proofs.«132533_j27427661152789_1_alg».proof.Proof.Spec
import proofs.«132533_j27427661152789_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LogSoftmax

open Cert.KernelIdeal Cert.KernelIdeal.Gen Idealize.ShloMosaic Idealize.ShloMosaic.TcCoe Idealize.SL.Sem
open Idealize.ShloMosaic.ValueIdx Cert.LibColumn
open Idealize.ShloMosaic.Pipeline (Dat)

theorem origin : (![0, 0] : Fin 2 → Nat) = fun _ => 0 := funext fun a => by fin_cases a <;> rfl

/-- The index a row reduction's result index p and a class j name together is (p, j). -/
theorem lift_eq (p : Fin 2000) (k : Fin 40) :
    reduces_S2000x40_S2000.lift (ix1 p) k = (ix2 p k : S2000x40.Idx) :=
  funext fun a => Fin.ext (by
    match a with
    | ⟨0, _⟩ => rfl
    | ⟨1, _⟩ => rfl)

/-- The row maximum, kept as a column and spread back over the classes, read at (p, j): the largest entry of row p. -/
theorem rowmax_apply (z : FVec Ideal S2000x40 .f32) (p : Fin 2000) (j : Fin 40) :
    broadcastTo S2000x40 (shapeCast S2000x1 (multiReduction .maximumf [1] S2000 z 0xFF800000#32 reduces_S2000x40_S2000 (.inl rfl) rfl) shapeCasts_S2000_S2000x1) broadcasts_S2000x1_S2000x40 (ix2 p j)
      = Cert.Gcn.rowMax (fun k => z (ix2 p k)) := by
  refine (broadcastTo_a1_ab_apply _ broadcasts_S2000x1_S2000x40 p j).trans ?_
  refine (shapeCast_a_a1_apply _ shapeCasts_S2000_S2000x1 p (0 : Fin 1)).trans ?_
  refine (Ideal.multiReduction_maximumf_single z 0xFF800000#32 reduces_S2000x40_S2000 (.inl rfl) rfl (ix1 p)).trans ?_
  unfold Cert.Gcn.rowMax
  congr 1
  funext k
  exact congrArg z (lift_eq p k)

/-- The row sum, read at row p: the sum over the classes of row p's entries. -/
theorem rowsum_apply (e : FVec Ideal S2000x40 .f32) (p : Fin 2000) :
    multiReduction .add [1] S2000 e 0x00000000#32 reduces_S2000x40_S2000 (.inl rfl) rfl (ix1 p)
      = ∑ k : Fin 40, e (ix2 p k) := by
  refine (Ideal.multiReduction_add_single e 0x00000000#32 reduces_S2000x40_S2000 (.inl rfl) rfl (ix1 p)).trans ?_
  exact Finset.sum_congr rfl fun k _ => congrArg e (lift_eq p k)

/-- One tile's result at (p, q): the log-softmax at class q of the row z[j] = s-tile[p, j] + b[0, j]. -/
theorem tile_apply (x0 : FVec Ideal S2000x40 .f32) (x1 : FVec Ideal S1x40 .f32) (p : Fin 2000) (q : Fin 40) :
    k2_pay1 (F := Ideal) x0 x1 (ix2 p q)
      = Cert.Gcn.rowLogSoftmax (fun j => x0 (ix2 p j) + x1 (ix2 (0 : Fin 1) j)) q := by
  unfold k2_pay1
  simp only [shapeCast_self]
  -- the biased scores of the tile
  have hz : ∀ j : Fin 40, addf (F := Ideal) x0 (broadcastTo S2000x40 x1 broadcasts_S1x40_S2000x40) (ix2 p j) = x0 (ix2 p j) + x1 (ix2 (0 : Fin 1) j) := fun j => by
    show x0 (ix2 p j) + broadcastTo S2000x40 x1 broadcasts_S1x40_S2000x40 (ix2 p j) = _
    rw [broadcastTo_1b_ab_apply x1 broadcasts_S1x40_S2000x40 p j]
  generalize addf (F := Ideal) x0 (broadcastTo S2000x40 x1 broadcasts_S1x40_S2000x40) = z at hz ⊢
  have hrow : (fun k => z (ix2 p k)) = (fun j : Fin 40 => x0 (ix2 p j) + x1 (ix2 (0 : Fin 1) j)) := funext hz
  rw [← hrow]
  -- the shifted scores
  have hshift : ∀ j : Fin 40, subf (F := Ideal) z (broadcastTo S2000x40 (shapeCast S2000x1 (multiReduction .maximumf [1] S2000 z 0xFF800000#32 reduces_S2000x40_S2000 (.inl rfl) rfl) shapeCasts_S2000_S2000x1) broadcasts_S2000x1_S2000x40) (ix2 p j)
      = z (ix2 p j) - Cert.Gcn.rowMax (fun k => z (ix2 p k)) := fun j => by
    show z (ix2 p j) - _ = _
    rw [rowmax_apply z p j]
  generalize subf (F := Ideal) z (broadcastTo S2000x40 (shapeCast S2000x1 (multiReduction .maximumf [1] S2000 z 0xFF800000#32 reduces_S2000x40_S2000 (.inl rfl) rfl) shapeCasts_S2000_S2000x1) broadcasts_S2000x1_S2000x40) = d at hshift ⊢
  show d (ix2 p q) - broadcastTo S2000x40 (log (shapeCast S2000x1 (multiReduction .add [1] S2000 (exp d) 0x00000000#32 reduces_S2000x40_S2000 (.inl rfl) rfl) shapeCasts_S2000_S2000x1)) broadcasts_S2000x1_S2000x40 (ix2 p q) = _
  rw [broadcastTo_a1_ab_apply _ broadcasts_S2000x1_S2000x40 p q]
  show d (ix2 p q) - Ideal.log (shapeCast S2000x1 (multiReduction .add [1] S2000 (exp d) 0x00000000#32 reduces_S2000x40_S2000 (.inl rfl) rfl) shapeCasts_S2000_S2000x1 (ix2 p (0 : Fin 1))) = _
  rw [shapeCast_a_a1_apply _ shapeCasts_S2000_S2000x1 p (0 : Fin 1), rowsum_apply (exp d) p]
  unfold Cert.Gcn.rowLogSoftmax
  rw [hshift q]
  congr 2
  exact Finset.sum_congr rfl fun k _ => by
    show Ideal.exp (d (ix2 p k)) = _
    rw [hshift k]

/-- A tile whose rows are rows of s and whose bias row is b holds, at (p, q), entry i of the log-softmax, where i is
    the array index the tile's (p, q) sits at. -/
theorem tile_eq (S : Vec Ideal S100000x40 .f32) (B : Vec Ideal S40 .f32)
    (x0 : Vec Ideal S2000x40 .f32) (x1 : Vec Ideal S1x40 .f32) (p : Fin 2000) (q : Fin 40) (i : S100000x40.Idx)
    (hs : ∀ k : Fin 40, x0 (ix2 p k) = S (ix2 (i 0) k)) (hb : ∀ k : Fin 40, x1 (ix2 (0 : Fin 1) k) = B (ix1 k))
    (hq : (i 1).val = q.val) :
    k2_pay1 (F := Ideal) x0 x1 (ix2 p q) = Cert.Gcn.logSoftmax S B i := by
  refine (tile_apply x0 x1 p q).trans ?_
  show _ = Cert.Gcn.rowLogSoftmax (Cert.Gcn.scoreRow S B (i 0)) (i 1)
  have hrow : (fun j : Fin 40 => x0 (ix2 p j) + x1 (ix2 (0 : Fin 1) j)) = Cert.Gcn.scoreRow S B (i 0) := funext fun j => by
    show _ = S (ix2 (i 0) j) + B (ix1 j)
    rw [hs j, hb j]
  rw [hrow]
  exact congrArg _ (Fin.ext hq.symm)

/-! ## From tiles to the array -/

variable (V : (c : Dev nD) → (b : Ref sig .tc) → Buf (Elt Ideal) ((c : Thread nD τ).loc b))

/-- The index maps over the 50 tiles: the scores and the result move with the tile down the rows, the bias row stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What tile t writes back is block t of the log-softmax of the scores the call finds, for any bias vector B whose
    row form the call's second operand is. -/
theorem flushed_eq (c : Dev nD) (B : Vec Ideal S40 .f32)
    (hB : ∀ k : Fin 40, V c main_v29 (ix2 (0 : Fin 1) k) = B (ix1 k)) (t : Fin cfg2.N) :
    (dat2 V c).flushed 2 t = ((cfg2.win 2).blk t).view.read (Elt Ideal) (Cert.Gcn.logSoftmax (V c main_v28) B) := by
  show (cfg2.win 2).cut (grid2.coords t) ((dat2 V c).after 2 t) = _
  rw [after2_2]
  unfold out2_2
  rw [View.canon_unit_zero origin]
  simp only [View.ld_unit_zero (S := S2000x40) origin, View.ld_unit_zero (S := S1x40) origin]
  obtain ⟨e0, e1, e2, e3, e4, e5⟩ := idx_facts t
  funext j
  show k2_pay1 (iblk2 V c 0 t) (iblk2 V c 1 t) j = Cert.Gcn.logSoftmax (V c main_v28) B (((cfg2.win 2).blk t).view.emb j)
  obtain ⟨p, q, rfl⟩ : ∃ (p : Fin 2000) (q : Fin 40), j = ix2 p q := ⟨j 0, j 1, eq_ix2 j⟩
  refine tile_eq (V c main_v28) B (iblk2 V c 0 t) (iblk2 V c 1 t) p q (((cfg2.win 2).blk t).view.emb (ix2 p q)) (fun k => ?_) (fun k => ?_) ?_
  · unfold iblk2
    rw [View.read_apply]
    show V c main_v28 _ = V c main_v28 _
    congr 1
    funext a
    apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 40 + 1 * k.val = k.val; omega
  · refine Eq.trans ?_ (hB k)
    unfold iblk2
    rw [View.read_apply]
    show V c main_v29 _ = V c main_v29 _
    congr 1
    funext a
    apply Fin.ext
    match a with
    | ⟨0, _⟩ => show win2_1.index t (0 : Fin 2) * 1 + 1 * 0 = 0; omega
    | ⟨1, _⟩ => show win2_1.index t (1 : Fin 2) * 40 + 1 * k.val = k.val; omega
  · show win2_2.index t (1 : Fin 2) * 40 + 1 * q.val = q.val
    omega

/-- An index of the array lies in tile t's block iff each coordinate lies in the block's range. -/
theorem mem_blk (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v30).slice (win2_2.rect t)).set ↔ _
  rw [View.set_slice_whole, Rect.mem_set_unit]
  exact Iff.rfl

/-- Row r lies in tile r / 2000: the tiles cover the array. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hlt : (i 0).val / 2000 < 50 := by omega
  obtain ⟨e0, e1, e2, e3, e4, e5⟩ := idx_facts ⟨(i 0).val / 2000, hlt⟩
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, hlt⟩ (1 : Fin 2) * 40 ≤ (i 1).val ∧ (i 1).val < win2_2.index ⟨(i 0).val / 2000, hlt⟩ (1 : Fin 2) * 40 + 40
    rw [e5]
    omega

/-- The array after the third call is the row-wise log-softmax of the scores it finds plus the bias. -/
theorem final (c : Dev nD) (B : Vec Ideal S40 .f32)
    (hB : ∀ k : Fin 40, V c main_v29 (ix2 (0 : Fin 1) k) = B (ix1 k)) :
    (dat2 V c).arrAt 2 cfg2.N = Cert.Gcn.logSoftmax (V c main_v28) B :=
  (dat2 V c).arrAt_eq_of_cover 2 (Cert.Gcn.logSoftmax (V c main_v28) B) (fun t _ => flushed_eq V c B hB t) cover

end Cert.KernelIdeal.LogSoftmax

end
-- ==== Proof.Spmm.lean ====
/-
  The sparse aggregation both programs share: for every edge take the source node's feature row (the source index
  wrapped once if negative), scale it by the edge's weight, and add it into the destination node's row of a zero
  array. Both programs apply exactly this chain of host operations, so it is carried as one function of the feature
  array, the edge weights and the two index arrays, and never opened.
-/
import proofs.«132533_j27427661152789_1_alg».proof.Proof.Gen.KernelIdeal
import proofs.«132533_j27427661152789_1_alg».proof.Proof.Gen.ReferenceIdeal

noncomputable section

namespace Cert.Gcn

open Idealize.ShloMosaic Idealize.ShloMosaic.TcCoe Idealize.SL.Sem

variable {F : FTy → Type} [FloatOps F]

/-- Aggregation of 64-wide feature rows over the edges. -/
def spmm64 (feat : (⟨Cert.KernelIdeal.S100000x64, .f32⟩ : BufTy).Contents (Elt F)) (vals : (⟨Cert.KernelIdeal.S1600000, .f32⟩ : BufTy).Contents (Elt F))
    (er ec : (⟨Cert.KernelIdeal.S1600000, .i32⟩ : BufTy).Contents (Elt F)) : (⟨Cert.KernelIdeal.S100000x64, .f32⟩ : BufTy).Contents (Elt F) :=
  Host.scatterAdd Cert.KernelIdeal.scatter_S100000x64_S1600000x1_S1600000x64_1_0_0_1
    (broadcastInDim Cert.KernelIdeal.S100000x64 ![] Cert.KernelIdeal.Gen.bcast_S_S100000x64 (constant Cert.KernelIdeal.S_ .f32 0x00000000#32))
    (broadcastInDim Cert.KernelIdeal.S1600000x1 ![0] Cert.KernelIdeal.Gen.bcast_S1600000_S1600000x1_0 er)
    (mulf (broadcastInDim Cert.KernelIdeal.S1600000x64 ![0, 1] Cert.KernelIdeal.Gen.bcast_S1600000x1_S1600000x64_0_1 (broadcastInDim Cert.KernelIdeal.S1600000x1 ![0] Cert.KernelIdeal.Gen.bcast_S1600000_S1600000x1_0 vals))
      (Host.gather Cert.KernelIdeal.gather_S100000x64_S1600000x1_S1600000x64_1_0_n_n_0_1_164 feat
        (broadcastInDim Cert.KernelIdeal.S1600000x1 ![0] Cert.KernelIdeal.Gen.bcast_S1600000_S1600000x1_0
          (select (cmpi .slt ec (broadcastInDim Cert.KernelIdeal.S1600000 ![] Cert.KernelIdeal.Gen.bcast_S_S1600000 (constantI Cert.KernelIdeal.S_ 32 0#32)))
            (addi ec (broadcastInDim Cert.KernelIdeal.S1600000 ![] Cert.KernelIdeal.Gen.bcast_S_S1600000 (constantI Cert.KernelIdeal.S_ 32 100000#32))) ec))))

/-- Aggregation of 40-wide score rows over the edges. -/
def spmm40 (feat : (⟨Cert.KernelIdeal.S100000x40, .f32⟩ : BufTy).Contents (Elt F)) (vals : (⟨Cert.KernelIdeal.S1600000, .f32⟩ : BufTy).Contents (Elt F))
    (er ec : (⟨Cert.KernelIdeal.S1600000, .i32⟩ : BufTy).Contents (Elt F)) : (⟨Cert.KernelIdeal.S100000x40, .f32⟩ : BufTy).Contents (Elt F) :=
  Host.scatterAdd Cert.KernelIdeal.scatter_S100000x40_S1600000x1_S1600000x40_1_0_0_1
    (broadcastInDim Cert.KernelIdeal.S100000x40 ![] Cert.KernelIdeal.Gen.bcast_S_S100000x40 (constant Cert.KernelIdeal.S_ .f32 0x00000000#32))
    (broadcastInDim Cert.KernelIdeal.S1600000x1 ![0] Cert.KernelIdeal.Gen.bcast_S1600000_S1600000x1_0 er)
    (mulf (broadcastInDim Cert.KernelIdeal.S1600000x40 ![0, 1] Cert.KernelIdeal.Gen.bcast_S1600000x1_S1600000x40_0_1 (broadcastInDim Cert.KernelIdeal.S1600000x1 ![0] Cert.KernelIdeal.Gen.bcast_S1600000_S1600000x1_0 vals))
      (Host.gather Cert.KernelIdeal.gather_S100000x40_S1600000x1_S1600000x40_1_0_n_n_0_1_140 feat
        (broadcastInDim Cert.KernelIdeal.S1600000x1 ![0] Cert.KernelIdeal.Gen.bcast_S1600000_S1600000x1_0
          (select (cmpi .slt ec (broadcastInDim Cert.KernelIdeal.S1600000 ![] Cert.KernelIdeal.Gen.bcast_S_S1600000 (constantI Cert.KernelIdeal.S_ 32 0#32)))
            (addi ec (broadcastInDim Cert.KernelIdeal.S1600000 ![] Cert.KernelIdeal.Gen.bcast_S_S1600000 (constantI Cert.KernelIdeal.S_ 32 100000#32))) ec))))

/-- The reference's chain on 64-wide rows is the same function (its shape records have the same fields). -/
theorem spmm64_ref (feat : (⟨Cert.ReferenceIdeal.S100000x64, .f32⟩ : BufTy).Contents (Elt F)) (vals : (⟨Cert.ReferenceIdeal.S1600000, .f32⟩ : BufTy).Contents (Elt F))
    (er ec : (⟨Cert.ReferenceIdeal.S1600000, .i32⟩ : BufTy).Contents (Elt F)) :
    (Host.scatterAdd Cert.ReferenceIdeal.scatter_S100000x64_S1600000x1_S1600000x64_1_0_0_1
    (broadcastInDim Cert.ReferenceIdeal.S100000x64 ![] Cert.ReferenceIdeal.Gen.bcast_S_S100000x64 (constant Cert.ReferenceIdeal.S_ .f32 0x00000000#32))
    (broadcastInDim Cert.ReferenceIdeal.S1600000x1 ![0] Cert.ReferenceIdeal.Gen.bcast_S1600000_S1600000x1_0 er)
    (mulf (broadcastInDim Cert.ReferenceIdeal.S1600000x64 ![0, 1] Cert.ReferenceIdeal.Gen.bcast_S1600000x1_S1600000x64_0_1 (broadcastInDim Cert.ReferenceIdeal.S1600000x1 ![0] Cert.ReferenceIdeal.Gen.bcast_S1600000_S1600000x1_0 vals))
      (Host.gather Cert.ReferenceIdeal.gather_S100000x64_S1600000x1_S1600000x64_1_0_n_n_0_1_164 feat
        (broadcastInDim Cert.ReferenceIdeal.S1600000x1 ![0] Cert.ReferenceIdeal.Gen.bcast_S1600000_S1600000x1_0
          (select (cmpi .slt ec (broadcastInDim Cert.ReferenceIdeal.S1600000 ![] Cert.ReferenceIdeal.Gen.bcast_S_S1600000 (constantI Cert.ReferenceIdeal.S_ 32 0#32)))
            (addi ec (broadcastInDim Cert.ReferenceIdeal.S1600000 ![] Cert.ReferenceIdeal.Gen.bcast_S_S1600000 (constantI Cert.ReferenceIdeal.S_ 32 100000#32))) ec)))) : (⟨Cert.ReferenceIdeal.S100000x64, .f32⟩ : BufTy).Contents (Elt F))
      = spmm64 (F := F) feat vals er ec := rfl

/-- The reference's chain on 40-wide rows likewise. -/
theorem spmm40_ref (feat : (⟨Cert.ReferenceIdeal.S100000x40, .f32⟩ : BufTy).Contents (Elt F)) (vals : (⟨Cert.ReferenceIdeal.S1600000, .f32⟩ : BufTy).Contents (Elt F))
    (er ec : (⟨Cert.ReferenceIdeal.S1600000, .i32⟩ : BufTy).Contents (Elt F)) :
    (Host.scatterAdd Cert.ReferenceIdeal.scatter_S100000x40_S1600000x1_S1600000x40_1_0_0_1
    (broadcastInDim Cert.ReferenceIdeal.S100000x40 ![] Cert.ReferenceIdeal.Gen.bcast_S_S100000x40 (constant Cert.ReferenceIdeal.S_ .f32 0x00000000#32))
    (broadcastInDim Cert.ReferenceIdeal.S1600000x1 ![0] Cert.ReferenceIdeal.Gen.bcast_S1600000_S1600000x1_0 er)
    (mulf (broadcastInDim Cert.ReferenceIdeal.S1600000x40 ![0, 1] Cert.ReferenceIdeal.Gen.bcast_S1600000x1_S1600000x40_0_1 (broadcastInDim Cert.ReferenceIdeal.S1600000x1 ![0] Cert.ReferenceIdeal.Gen.bcast_S1600000_S1600000x1_0 vals))
      (Host.gather Cert.ReferenceIdeal.gather_S100000x40_S1600000x1_S1600000x40_1_0_n_n_0_1_140 feat
        (broadcastInDim Cert.ReferenceIdeal.S1600000x1 ![0] Cert.ReferenceIdeal.Gen.bcast_S1600000_S1600000x1_0
          (select (cmpi .slt ec (broadcastInDim Cert.ReferenceIdeal.S1600000 ![] Cert.ReferenceIdeal.Gen.bcast_S_S1600000 (constantI Cert.ReferenceIdeal.S_ 32 0#32)))
            (addi ec (broadcastInDim Cert.ReferenceIdeal.S1600000 ![] Cert.ReferenceIdeal.Gen.bcast_S_S1600000 (constantI Cert.ReferenceIdeal.S_ 32 100000#32))) ec)))) : (⟨Cert.ReferenceIdeal.S100000x40, .f32⟩ : BufTy).Contents (Elt F))
      = spmm40 (F := F) feat vals er ec := rfl

end Cert.Gcn

end
-- ==== Proof.Model.lean ====
/-
  The whole network as one function of the eight arguments: dense layer, aggregation over the edges, bias and
  clamp with the second dense layer, aggregation again, bias and row-wise log-softmax.
-/
import proofs.«132533_j27427661152789_1_alg».proof.Proof.Spec
import proofs.«132533_j27427661152789_1_alg».proof.Proof.Spmm

noncomputable section

namespace Cert.Gcn

open Idealize.ShloMosaic

/-- log_softmax(A · (relu(A · (x W1) + b1) W10) + b10), A the weighted adjacency given by its edge list. -/
def gcn (x : (⟨Cert.KernelIdeal.S100000x512, .f32⟩ : BufTy).Contents (Elt Ideal)) (vals : (⟨Cert.KernelIdeal.S1600000, .f32⟩ : BufTy).Contents (Elt Ideal))
    (W1 : (⟨Cert.KernelIdeal.S512x64, .f32⟩ : BufTy).Contents (Elt Ideal)) (b1 : (⟨Cert.KernelIdeal.S64, .f32⟩ : BufTy).Contents (Elt Ideal))
    (W10 : (⟨Cert.KernelIdeal.S64x40, .f32⟩ : BufTy).Contents (Elt Ideal)) (b10 : (⟨Cert.KernelIdeal.S40, .f32⟩ : BufTy).Contents (Elt Ideal))
    (er ec : (⟨Cert.KernelIdeal.S1600000, .i32⟩ : BufTy).Contents (Elt Ideal)) : (⟨Cert.KernelIdeal.S100000x40, .f32⟩ : BufTy).Contents (Elt Ideal) :=
  logSoftmax (spmm40 (F := Ideal) (dense2 (spmm64 (F := Ideal) (dense1 x W1) vals er ec) b1 W10) vals er ec) b10

end Cert.Gcn

end
-- ==== Proof.KValue.lean ====
/-
  The kernel's result as the network function of its arguments. The run's buffer contents are followed from the
  launch to the return: the first call leaves x · W1; the host operations aggregate it over the edges and lay the
  bias out as a row; the second call leaves the second dense layer of that; the host operations aggregate again;
  the third call leaves the row-wise log-softmax. No argument buffer is written on the way, so every stage reads
  the arguments as launched.
-/
import proofs.«132533_j27427661152789_1_alg».proof.Proof.Gen.KernelIdeal.Frame
import proofs.«132533_j27427661152789_1_alg».proof.Proof.Dense1
import proofs.«132533_j27427661152789_1_alg».proof.Proof.Dense2
import proofs.«132533_j27427661152789_1_alg».proof.Proof.LogSoftmax
import proofs.«132533_j27427661152789_1_alg».proof.Proof.Model
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Gcn

variable (m : (ℓ : Loc nD τ sig) → Buf (Elt Ideal) ℓ) (ρ : Dev nD → PrngReg)

/-! ## After the first call -/

/-- The first call leaves x · W1 in its result buffer. -/
theorem W1_v0 (c : Dev nD) :
    W1 m ρ c (Proc.devRef .tc main_v0) = dense1 (m ((c : Thread nD τ).loc main_arg0)) (m ((c : Thread nD τ).loc main_arg2)) :=
  (W1_arr m ρ c 2).trans (Cert.KernelIdeal.Dense1.final (V0 m ρ) c)

/-- It writes none of the other arguments. -/
theorem W1_arg1 (c : Dev nD) : W1 m ρ c (Proc.devRef .tc main_arg1) = m ((c : Thread nD τ).loc main_arg1) := W1_of_ne m ρ c main_arg1 (by decide)
theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)
theorem W1_arg7 (c : Dev nD) : W1 m ρ c (Proc.devRef .tc main_arg7) = m ((c : Thread nD τ).loc main_arg7) := W1_of_ne m ρ c main_arg7 (by decide)

/-! ## Before the second call -/

/-- The aggregated hidden features the second call finds. -/
theorem V2_v13 (c : Dev nD) :
    V2 m ρ c main_v13 = spmm64 (F := Ideal) (dense1 (m ((c : Thread nD τ).loc main_arg0)) (m ((c : Thread nD τ).loc main_arg2)))
      (m ((c : Thread nD τ).loc main_arg1)) (m ((c : Thread nD τ).loc main_arg6)) (m ((c : Thread nD τ).loc main_arg7)) := by
  show StableHlo.after hostOps1 (W1 m ρ c) (Proc.devRef .tc main_v13) = _
  after_results_simp
  rw [W1_v0, W1_arg1, W1_arg6, W1_arg7]
  rfl

/-- The bias of the first layer, laid out as a row, read at column k. -/
theorem V2_v14 (c : Dev nD) (k : Fin 64) :
    V2 m ρ c main_v14 (ix2 (0 : Fin 1) k) = m ((c : Thread nD τ).loc main_arg3) (ix1 k) := by
  have h : V2 m ρ c main_v14 = shapeCast S1x64 (m ((c : Thread nD τ).loc main_arg3)) shapeCasts_S64_S1x64 := by
    show StableHlo.after hostOps1 (W1 m ρ c) (Proc.devRef .tc main_v14) = _
    after_results_simp
    rw [W1_arg3]
    rfl
  rw [h]
  exact shapeCast_a_1a_apply _ _ (0 : Fin 1) k

/-- The second weight as the second call finds it. -/
theorem V2_arg4 (c : Dev nD) : V2 m ρ c main_arg4 = m ((c : Thread nD τ).loc main_arg4) := by
  show StableHlo.after hostOps1 (W1 m ρ c) (Proc.devRef .tc main_arg4) = _
  after_results_simp
  exact W1_arg4 m ρ c

/-! ## After the second call -/

/-- The second call leaves the second dense layer of the aggregated hidden features. -/
theorem W3_v15 (c : Dev nD) :
    W3 m ρ c (Proc.devRef .tc main_v15) = dense2 (spmm64 (F := Ideal) (dense1 (m ((c : Thread nD τ).loc main_arg0)) (m ((c : Thread nD τ).loc main_arg2))) (m ((c : Thread nD τ).loc main_arg1)) (m ((c : Thread nD τ).loc main_arg6)) (m ((c : Thread nD τ).loc main_arg7))) (m ((c : Thread nD τ).loc main_arg3)) (m ((c : Thread nD τ).loc main_arg4)) := by
  refine (W3_arr m ρ c 3).trans ?_
  refine (Cert.KernelIdeal.Dense2.final (V2 m ρ) c (m ((c : Thread nD τ).loc main_arg3)) (V2_v14 m ρ c)).trans ?_
  rw [V2_v13, V2_arg4]

/-- The edge list and the last bias are still as launched. -/
theorem W3_arg1 (c : Dev nD) : W3 m ρ c (Proc.devRef .tc main_arg1) = m ((c : Thread nD τ).loc main_arg1) := by
  refine (W3_of_ne m ρ c main_arg1 (by decide)).trans ?_
  show StableHlo.after hostOps1 (W1 m ρ c) (Proc.devRef .tc main_arg1) = _
  after_results_simp
  exact W1_arg1 m ρ c
theorem W3_arg5 (c : Dev nD) : W3 m ρ c (Proc.devRef .tc main_arg5) = m ((c : Thread nD τ).loc main_arg5) := by
  refine (W3_of_ne m ρ c main_arg5 (by decide)).trans ?_
  show StableHlo.after hostOps1 (W1 m ρ c) (Proc.devRef .tc main_arg5) = _
  after_results_simp
  exact W1_arg5 m ρ c
theorem W3_arg6 (c : Dev nD) : W3 m ρ c (Proc.devRef .tc main_arg6) = m ((c : Thread nD τ).loc main_arg6) := by
  refine (W3_of_ne m ρ c main_arg6 (by decide)).trans ?_
  show StableHlo.after hostOps1 (W1 m ρ c) (Proc.devRef .tc main_arg6) = _
  after_results_simp
  exact W1_arg6 m ρ c
theorem W3_arg7 (c : Dev nD) : W3 m ρ c (Proc.devRef .tc main_arg7) = m ((c : Thread nD τ).loc main_arg7) := by
  refine (W3_of_ne m ρ c main_arg7 (by decide)).trans ?_
  show StableHlo.after hostOps1 (W1 m ρ c) (Proc.devRef .tc main_arg7) = _
  after_results_simp
  exact W1_arg7 m ρ c

/-! ## Before the third call -/

/-- The aggregated class scores the third call finds. -/
theorem V4_v28 (c : Dev nD) : V4 m ρ c main_v28 = (spmm40 (F := Ideal) (dense2 (spmm64 (F := Ideal) (dense1 (m ((c : Thread nD τ).loc main_arg0)) (m ((c : Thread nD τ).loc main_arg2))) (m ((c : Thread nD τ).loc main_arg1)) (m ((c : Thread nD τ).loc main_arg6)) (m ((c : Thread nD τ).loc main_arg7))) (m ((c : Thread nD τ).loc main_arg3)) (m ((c : Thread nD τ).loc main_arg4))) (m ((c : Thread nD τ).loc main_arg1)) (m ((c : Thread nD τ).loc main_arg6)) (m ((c : Thread nD τ).loc main_arg7))) := by
  show StableHlo.after hostOps2 (W3 m ρ c) (Proc.devRef .tc main_v28) = _
  after_results_simp
  rw [W3_v15, W3_arg1, W3_arg6, W3_arg7]
  rfl

/-- The bias of the second layer, laid out as a row, read at column k. -/
theorem V4_v29 (c : Dev nD) (k : Fin 40) :
    V4 m ρ c main_v29 (ix2 (0 : Fin 1) k) = m ((c : Thread nD τ).loc main_arg5) (ix1 k) := by
  have h : V4 m ρ c main_v29 = shapeCast S1x40 (m ((c : Thread nD τ).loc main_arg5)) shapeCasts_S40_S1x40 := by
    show StableHlo.after hostOps2 (W3 m ρ c) (Proc.devRef .tc main_v29) = _
    after_results_simp
    rw [W3_arg5]
    rfl
  rw [h]
  exact shapeCast_a_1a_apply _ _ (0 : Fin 1) k

/-! ## At the return -/

/-- The result buffer holds the network function of the arguments as launched. -/
theorem W5_v30 (c : Dev nD) :
    W5 m ρ c (Proc.devRef .tc main_v30)
      = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W5_arr m ρ c 2).trans ?_
  refine (Cert.KernelIdeal.LogSoftmax.final (V4 m ρ) c (m ((c : Thread nD τ).loc main_arg5)) (V4_v29 m ρ c)).trans ?_
  rw [V4_v28]
  rfl

end Cert.KernelIdeal.KValue

end
-- ==== Proof.RefStages.lean ====
/-
  The reference's dense stages and its closing log-softmax, each as the whole-array function of the model. A host
  matrix product read at (p, q) is the sum over the contracted axis of the operands' products; the bias is a vector
  laid out as a row and spread down the rows; the reference's log-softmax takes each row's maximum (once more
  against the bottom element, which changes nothing), subtracts it, and subtracts the logarithm of the row's sum of
  exponentials started from zero.
-/
import proofs.«132533_j27427661152789_1_alg».proof.Proof.Gen.ReferenceIdeal
import proofs.«132533_j27427661152789_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Idealize.ShloMosaic Idealize.ShloMosaic.TcCoe Idealize.SL.Sem
open Idealize.ShloMosaic.ValueIdx Cert.Gcn

/-! ## The two matrix products' operand indices, axis by axis -/

theorem d1_lhs0 (i : S100000x64.Idx) (q : dot_S100000x512_S512x64_S100000x64_1_0_0_1_n_n.contr.Idx) :
    (dot_S100000x512_S512x64_S100000x64_1_0_0_1_n_n.lhsIdx i q 0).val = (i 0).val := by
  unfold DotDims.lhsIdx
  rw [dif_neg (show ¬(0 : Fin S100000x512.rank) ∈ dot_S100000x512_S512x64_S100000x64_1_0_0_1_n_n.lhsBatch by decide), dif_pos (show (0 : Fin S100000x512.rank) ∈ dot_S100000x512_S512x64_S100000x64_1_0_0_1_n_n.lhsNonContracting by decide)]
  rfl
theorem d1_lhs1 (i : S100000x64.Idx) (q : dot_S100000x512_S512x64_S100000x64_1_0_0_1_n_n.contr.Idx) :
    (dot_S100000x512_S512x64_S100000x64_1_0_0_1_n_n.lhsIdx i q 1).val = (q ⟨0, by decide⟩).val :=
  dot_S100000x512_S512x64_S100000x64_1_0_0_1_n_n.lhsIdx_val_of_single rfl i q
theorem d1_rhs0 (i : S100000x64.Idx) (q : dot_S100000x512_S512x64_S100000x64_1_0_0_1_n_n.contr.Idx) :
    (dot_S100000x512_S512x64_S100000x64_1_0_0_1_n_n.rhsIdx i q 0).val = (q ⟨0, by decide⟩).val :=
  dot_S100000x512_S512x64_S100000x64_1_0_0_1_n_n.rhsIdx_val_of_single rfl i q
theorem d1_rhs1 (i : S100000x64.Idx) (q : dot_S100000x512_S512x64_S100000x64_1_0_0_1_n_n.contr.Idx) :
    (dot_S100000x512_S512x64_S100000x64_1_0_0_1_n_n.rhsIdx i q 1).val = (i 1).val := by
  unfold DotDims.rhsIdx
  rw [dif_neg (show ¬(1 : Fin S512x64.rank) ∈ dot_S100000x512_S512x64_S100000x64_1_0_0_1_n_n.rhsBatch by decide), dif_pos (show (1 : Fin S512x64.rank) ∈ dot_S100000x512_S512x64_S100000x64_1_0_0_1_n_n.rhsNonContracting by decide)]
  rfl
theorem d2_lhs0 (i : S100000x40.Idx) (q : dot_S100000x64_S64x40_S100000x40_1_0_0_1_n_n.contr.Idx) :
    (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
theorem d2_lhs1 (i : S100000x40.Idx) (q : dot_S100000x64_S64x40_S100000x40_1_0_0_1_n_n.contr.Idx) :
    (dot_S100000x64_S64x40_S100000x40_1_0_0_1_n_n.lhsIdx i q 1).val = (q ⟨0, by decide⟩).val :=
  dot_S100000x64_S64x40_S100000x40_1_0_0_1_n_n.lhsIdx_val_of_single rfl i q
theorem d2_rhs0 (i : S100000x40.Idx) (q : dot_S100000x64_S64x40_S100000x40_1_0_0_1_n_n.contr.Idx) :
    (dot_S100000x64_S64x40_S100000x40_1_0_0_1_n_n.rhsIdx i q 0).val = (q ⟨0, by decide⟩).val :=
  dot_S100000x64_S64x40_S100000x40_1_0_0_1_n_n.rhsIdx_val_of_single rfl i q
theorem d2_rhs1 (i : S100000x40.Idx) (q : dot_S100000x64_S64x40_S100000x40_1_0_0_1_n_n.contr.Idx) :
    (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

/-! ## Layouts read at an index -/

/-- A 64-vector laid out as a row and spread down 100000 rows reads, at (p, k), the vector at k. -/
theorem biasRows64_apply (b : FVec Ideal S64 .f32) (p : Fin 100000) (k : Fin 64) :
    broadcastInDim S100000x64 ![0, 1] bcast_S1x64_S100000x64_0_1 (broadcastInDim S1x64 ![1] bcast_S64_S1x64_1 b) (ix2 p k) = b (ix1 k) := by
  refine (broadcastInDim_apply _ bcast_S1x64_S100000x64_0_1 _ (ix2 p k) (ix2 (0 : Fin 1) k) (fun a => match a with
    | ⟨0, _⟩ => by show 0 = if (1 : Nat) = 1 then 0 else p.val; rw [if_pos rfl]
    | ⟨1, _⟩ => by show k.val = if (64 : Nat) = 1 then 0 else k.val; rw [if_neg (by decide)])).trans ?_
  exact broadcastInDim_apply _ bcast_S64_S1x64_1 b (ix2 (0 : Fin 1) k) (ix1 k) (fun a => match a with
    | ⟨0, _⟩ => by show k.val = if (64 : Nat) = 1 then 0 else k.val; rw [if_neg (by decide)])

/-- A 40-vector laid out as a row and spread down 100000 rows reads, at (p, k), the vector at k. -/
theorem biasRows40_apply (b : FVec Ideal S40 .f32) (p : Fin 100000) (k : Fin 40) :
    broadcastInDim S100000x40 ![0, 1] bcast_S1x40_S100000x40_0_1 (broadcastInDim S1x40 ![1] bcast_S40_S1x40_1 b) (ix2 p k) = b (ix1 k) := by
  refine (broadcastInDim_apply _ bcast_S1x40_S100000x40_0_1 _ (ix2 p k) (ix2 (0 : Fin 1) k) (fun a => match a with
    | ⟨0, _⟩ => by show 0 = if (1 : Nat) = 1 then 0 else p.val; rw [if_pos rfl]
    | ⟨1, _⟩ => by show k.val = if (40 : Nat) = 1 then 0 else k.val; rw [if_neg (by decide)])).trans ?_
  exact broadcastInDim_apply _ bcast_S40_S1x40_1 b (ix2 (0 : Fin 1) k) (ix1 k) (fun a => match a with
    | ⟨0, _⟩ => by show k.val = if (40 : Nat) = 1 then 0 else k.val; rw [if_neg (by decide)])

/-- A per-row value kept as a column and spread over the 40 classes reads, at (p, j), the value of row p. -/
theorem perRow_apply (v : FVec Ideal S100000 .f32) (p : Fin 100000) (j : Fin 40) :
    broadcastInDim S100000x40 ![0, 1] bcast_S100000x1_S100000x40_0_1 (broadcastInDim S100000x1 ![0] bcast_S100000_S100000x1_0 v) (ix2 p j) = v (ix1 p) := by
  refine (broadcastInDim_apply _ bcast_S100000x1_S100000x40_0_1 _ (ix2 p j) (ix2 p (0 : Fin 1)) (fun a => match a with
    | ⟨0, _⟩ => by show p.val = if (100000 : Nat) = 1 then 0 else p.val; rw [if_neg (by decide)]
    | ⟨1, _⟩ => by show 0 = if (1 : Nat) = 1 then 0 else j.val; rw [if_pos rfl])).trans ?_
  exact broadcastInDim_apply _ bcast_S100000_S100000x1_0 v (ix2 p (0 : Fin 1)) (ix1 p) (fun a => match a with
    | ⟨0, _⟩ => by show p.val = if (100000 : Nat) = 1 then 0 else p.val; rw [if_neg (by decide)])

/-- The column form alone, read at (p, 0). -/
theorem column_apply (v : FVec Ideal S100000 .f32) (p : Fin 100000) :
    broadcastInDim S100000x1 ![0] bcast_S100000_S100000x1_0 v (ix2 p (0 : Fin 1)) = v (ix1 p) :=
  broadcastInDim_apply _ bcast_S100000_S100000x1_0 v (ix2 p (0 : Fin 1)) (ix1 p) (fun a => match a with
    | ⟨0, _⟩ => by show p.val = if (100000 : Nat) = 1 then 0 else p.val; rw [if_neg (by decide)])

/-- A column spread over the 40 classes reads, at (p, j), the column at (p, 0). -/
theorem spread_apply (v : FVec Ideal S100000x1 .f32) (p : Fin 100000) (j : Fin 40) :
    broadcastInDim S100000x40 ![0, 1] bcast_S100000x1_S100000x40_0_1 v (ix2 p j) = v (ix2 p (0 : Fin 1)) :=
  broadcastInDim_apply _ bcast_S100000x1_S100000x40_0_1 v (ix2 p j) (ix2 p (0 : Fin 1)) (fun a => match a with
    | ⟨0, _⟩ => by show p.val = if (100000 : Nat) = 1 then 0 else p.val; rw [if_neg (by decide)]
    | ⟨1, _⟩ => by show 0 = if (1 : Nat) = 1 then 0 else j.val; rw [if_pos rfl])

/-- Zero spread over the 100000 × 64 array reads zero everywhere. -/
theorem zeros64_apply (p : Fin 100000) (k : Fin 64) :
    broadcastInDim S100000x64 ![] bcast_S_S100000x64 (constant (F := Ideal) S_ .f32 0x00000000#32) (ix2 p k) = Ideal.ofBits .f32 0x00000000#32 :=
  broadcastInDim_apply _ bcast_S_S100000x64 _ (ix2 p k) ix0 (fun a => a.elim0)

/-! ## The dense stages -/

/-- The reference's first matrix product is the model's first dense layer. -/
theorem ref_dense1 (x : FVec Ideal S100000x512 .f32) (w : FVec Ideal S512x64 .f32) :
    Host.dotGeneral dot_S100000x512_S512x64_S100000x64_1_0_0_1_n_n none x w = dense1 x w := by
  funext i
  obtain ⟨p, q, rfl⟩ : ∃ (p : Fin 100000) (q : Fin 64), i = ix2 p q := ⟨i 0, i 1, eq_ix2 i⟩
  rw [dense1_apply]
  simp only [Host.dotGeneral]
  rw [Ideal.dotGeneral_apply, ← Equiv.sum_comp (ValueIdx.contrEquiv1 dot_S100000x512_S512x64_S100000x64_1_0_0_1_n_n 512 rfl rfl).symm]
  refine Finset.sum_congr rfl fun k _ => ?_
  have hk := ValueIdx.contrEquiv1_symm_val dot_S100000x512_S512x64_S100000x64_1_0_0_1_n_n 512 rfl rfl k
  have el : dot_S100000x512_S512x64_S100000x64_1_0_0_1_n_n.lhsIdx (ix2 p q) ((ValueIdx.contrEquiv1 dot_S100000x512_S512x64_S100000x64_1_0_0_1_n_n 512 rfl rfl).symm k) = ix2 p k := funext fun a => Fin.ext (by
    match a with
    | ⟨0, _⟩ => exact d1_lhs0 _ _
    | ⟨1, _⟩ => exact (d1_lhs1 _ _).trans hk)
  have er : dot_S100000x512_S512x64_S100000x64_1_0_0_1_n_n.rhsIdx (ix2 p q) ((ValueIdx.contrEquiv1 dot_S100000x512_S512x64_S100000x64_1_0_0_1_n_n 512 rfl rfl).symm k) = ix2 k q := funext fun a => Fin.ext (by
    match a with
    | ⟨0, _⟩ => exact (d1_rhs0 _ _).trans hk
    | ⟨1, _⟩ => exact d1_rhs1 _ _)
  rw [el, er]

/-- The reference's bias, clamp and second matrix product are the model's second dense layer. -/
theorem ref_dense2 (s : FVec Ideal S100000x64 .f32) (b : FVec Ideal S64 .f32) (w : FVec Ideal S64x40 .f32) :
    Host.dotGeneral dot_S100000x64_S64x40_S100000x40_1_0_0_1_n_n none
        (maximumf (addf s (broadcastInDim S100000x64 ![0, 1] bcast_S1x64_S100000x64_0_1 (broadcastInDim S1x64 ![1] bcast_S64_S1x64_1 b)))
          (broadcastInDim S100000x64 ![] bcast_S_S100000x64 (constant S_ .f32 0x00000000#32))) w
      = dense2 s b w := by
  have hy : ∀ (p : Fin 100000) (k : Fin 64),
      maximumf (F := Ideal) (addf s (broadcastInDim S100000x64 ![0, 1] bcast_S1x64_S100000x64_0_1 (broadcastInDim S1x64 ![1] bcast_S64_S1x64_1 b)))
          (broadcastInDim S100000x64 ![] bcast_S_S100000x64 (constant S_ .f32 0x00000000#32)) (ix2 p k)
        = max (s (ix2 p k) + b (ix1 k)) (Ideal.ofBits .f32 0x00000000#32) := fun p k => by
    refine (ValueIdx.maximumf_apply _ _ (ix2 p k)).trans ?_
    rw [zeros64_apply p k]
    refine congrArg (max · (Ideal.ofBits .f32 0x00000000#32)) ?_
    refine (ValueIdx.addf_apply _ _ (ix2 p k)).trans ?_
    rw [biasRows64_apply b p k]
  generalize maximumf (F := Ideal) (addf s (broadcastInDim S100000x64 ![0, 1] bcast_S1x64_S100000x64_0_1 (broadcastInDim S1x64 ![1] bcast_S64_S1x64_1 b)))
          (broadcastInDim S100000x64 ![] bcast_S_S100000x64 (constant S_ .f32 0x00000000#32)) = y at hy ⊢
  funext i
  obtain ⟨p, q, rfl⟩ : ∃ (p : Fin 100000) (q : Fin 40), i = ix2 p q := ⟨i 0, i 1, eq_ix2 i⟩
  rw [dense2_apply]
  simp only [Host.dotGeneral]
  rw [Ideal.dotGeneral_apply, ← Equiv.sum_comp (ValueIdx.contrEquiv1 dot_S100000x64_S64x40_S100000x40_1_0_0_1_n_n 64 rfl rfl).symm]
  refine Finset.sum_congr rfl fun k _ => ?_
  have hk := ValueIdx.contrEquiv1_symm_val dot_S100000x64_S64x40_S100000x40_1_0_0_1_n_n 64 rfl rfl k
  have el : dot_S100000x64_S64x40_S100000x40_1_0_0_1_n_n.lhsIdx (ix2 p q) ((ValueIdx.contrEquiv1 dot_S100000x64_S64x40_S100000x40_1_0_0_1_n_n 64 rfl rfl).symm k) = ix2 p k := funext fun a => Fin.ext (by
    match a with
    | ⟨0, _⟩ => exact d2_lhs0 _ _
    | ⟨1, _⟩ => exact (d2_lhs1 _ _).trans hk)
  have er : dot_S100000x64_S64x40_S100000x40_1_0_0_1_n_n.rhsIdx (ix2 p q) ((ValueIdx.contrEquiv1 dot_S100000x64_S64x40_S100000x40_1_0_0_1_n_n 64 rfl rfl).symm k) = ix2 k q := funext fun a => Fin.ext (by
    match a with
    | ⟨0, _⟩ => exact (d2_rhs0 _ _).trans hk
    | ⟨1, _⟩ => exact d2_rhs1 _ _)
  rw [el, er]
  rw [hy p k]

/-! ## The log-softmax -/

/-- The index a row's result index p and a class k name together is (p, k). -/
theorem lift_eq (h : S100000x40.Reduces [1] S100000) (p : Fin 100000) (k : Fin 40) :
    h.lift (ix1 p) k = (ix2 p k : S100000x40.Idx) :=
  funext fun a => Fin.ext (by
    match a with
    | ⟨0, _⟩ => rfl
    | ⟨1, _⟩ => rfl)

/-- The bottom element is neutral for the maximum. -/
theorem max_bottom (x : EReal) : max (Ideal.ofBits .f32 0xFF800000#32) x = x := by
  simp [Ideal.ofBits, Ideal.ieee]

/-- The reference's row maximum is the fold of max over the row's classes. -/
theorem ref_reduceMax (z : FVec Ideal S100000x40 .f32) (p : Fin 100000) :
    Host.reduce FloatOps.maximumf z (constant S_ .f32 0xFF800000#32) reducesTo_S100000x40_S100000_d1 h_S_ (ix1 p)
      = rowMax (fun k => z (ix2 p k)) := by
  have hred : S100000x40.Reduces [1] S100000 := by decide
  refine (Host.reduce_eq_fold_single (FloatOps.maximumf (F := Ideal) (φ := .f32)) z (constant (F := Ideal) S_ .f32 0xFF800000#32) reducesTo_S100000x40_S100000_d1 hred h_S_ (ix1 p)).trans ?_
  unfold rowMax
  congr 1
  funext k
  exact congrArg z (lift_eq hred p k)

/-- The bottom element spread over the rows reads the bottom element at every row. -/
theorem bottoms_apply (p : Fin 100000) :
    broadcastInDim S100000 ![] bcast_S_S100000 (constant (F := Ideal) S_ .f32 0xFF800000#32) (ix1 p) = Ideal.ofBits .f32 0xFF800000#32 :=
  broadcastInDim_apply _ bcast_S_S100000 _ (ix1 p) ix0 (fun a => a.elim0)

/-- Taken once more against the bottom element, it is still the model's row maximum. -/
theorem ref_rowMax (z : FVec Ideal S100000x40 .f32) (p : Fin 100000) :
    maximumf (F := Ideal) (broadcastInDim S100000 ![] bcast_S_S100000 (constant S_ .f32 0xFF800000#32))
        (Host.reduce FloatOps.maximumf z (constant S_ .f32 0xFF800000#32) reducesTo_S100000x40_S100000_d1 h_S_) (ix1 p)
      = rowMax (fun k => z (ix2 p k)) := by
  refine (ValueIdx.maximumf_apply _ _ (ix1 p)).trans ?_
  rw [bottoms_apply p, ref_reduceMax z p]
  exact max_bottom _

/-- The reference's row sum from zero is the plain sum over the classes. -/
theorem ref_rowSum (e : FVec Ideal S100000x40 .f32) (p : Fin 100000) :
    Host.reduceAdd e (constant S_ .f32 0x00000000#32) reducesTo_S100000x40_S100000_d1 h_S_ (ix1 p)
      = ∑ k : Fin 40, e (ix2 p k) := by
  have hred : S100000x40.Reduces [1] S100000 := by decide
  simp only [Host.reduceAdd, Ideal.hostReduceAdd_def]
  rw [Ideal.hostReduceAdd_single reducesTo_S100000x40_S100000_d1 hred]
  show Ideal.ofBits .f32 0x00000000#32 + _ = _
  rw [Ideal.ofBits_zero_f32, zero_add]
  exact Finset.sum_congr rfl fun k _ => congrArg e (lift_eq hred p k)

/-- Subtracting the spread row maxima: at (p, j) the entry minus the maximum of row p. -/
theorem ref_shift (z : FVec Ideal S100000x40 .f32) (p : Fin 100000) (j : Fin 40) :
    subf (F := Ideal) z (broadcastInDim S100000x40 ![0, 1] bcast_S100000x1_S100000x40_0_1 (broadcastInDim S100000x1 ![0] bcast_S100000_S100000x1_0
          (maximumf (broadcastInDim S100000 ![] bcast_S_S100000 (constant S_ .f32 0xFF800000#32))
            (Host.reduce FloatOps.maximumf z (constant S_ .f32 0xFF800000#32) reducesTo_S100000x40_S100000_d1 h_S_)))) (ix2 p j)
      = z (ix2 p j) - rowMax (fun k => z (ix2 p k)) :=
  (ValueIdx.subf_apply _ _ (ix2 p j)).trans (congrArg (z (ix2 p j) - ·) ((perRow_apply _ p j).trans (ref_rowMax z p)))

/-- The host logarithm and exponential act entry by entry. -/
theorem hostLog_apply {S : Shape} (y : FVec Ideal S .f32) (i : S.Idx) : Host.log y i = Ideal.log (y i) := rfl
theorem hostExp_apply {S : Shape} (y : FVec Ideal S .f32) (i : S.Idx) : Host.exp y i = Ideal.exp (y i) := rfl

/-- Subtracting the spread logarithms of the row sums of exponentials: at (p, q) the entry minus the logarithm of
    the sum over row p. -/
theorem ref_tail (d : FVec Ideal S100000x40 .f32) (p : Fin 100000) (q : Fin 40) :
    subf (F := Ideal) d (broadcastInDim S100000x40 ![0, 1] bcast_S100000x1_S100000x40_0_1 (Host.log (broadcastInDim S100000x1 ![0] bcast_S100000_S100000x1_0
          (Host.reduceAdd (Host.exp d) (constant S_ .f32 0x00000000#32) reducesTo_S100000x40_S100000_d1 h_S_)))) (ix2 p q)
      = d (ix2 p q) - Ideal.log (∑ k : Fin 40, Ideal.exp (d (ix2 p k))) := by
  refine (ValueIdx.subf_apply _ _ (ix2 p q)).trans ?_
  refine congrArg (d (ix2 p q) - ·) ?_
  refine (spread_apply _ p q).trans ?_
  refine (hostLog_apply _ _).trans ?_
  refine congrArg Ideal.log ?_
  refine (column_apply _ p).trans ?_
  refine (ref_rowSum (Host.exp d) p).trans ?_
  exact Finset.sum_congr rfl fun k _ => hostExp_apply d (ix2 p k)

/-- The reference's closing steps on scores plus bias are the model's row-wise log-softmax. -/
theorem ref_logSoftmax (s : FVec Ideal S100000x40 .f32) (b : FVec Ideal S40 .f32) :
    subf
        (subf (addf s (broadcastInDim S100000x40 ![0, 1] bcast_S1x40_S100000x40_0_1 (broadcastInDim S1x40 ![1] bcast_S40_S1x40_1 b)))
          (broadcastInDim S100000x40 ![0, 1] bcast_S100000x1_S100000x40_0_1 (broadcastInDim S100000x1 ![0] bcast_S100000_S100000x1_0
            (maximumf (broadcastInDim S100000 ![] bcast_S_S100000 (constant S_ .f32 0xFF800000#32))
              (Host.reduce FloatOps.maximumf (addf s (broadcastInDim S100000x40 ![0, 1] bcast_S1x40_S100000x40_0_1 (broadcastInDim S1x40 ![1] bcast_S40_S1x40_1 b)))
                (constant S_ .f32 0xFF800000#32) reducesTo_S100000x40_S100000_d1 h_S_)))))
        (broadcastInDim S100000x40 ![0, 1] bcast_S100000x1_S100000x40_0_1 (Host.log (broadcastInDim S100000x1 ![0] bcast_S100000_S100000x1_0
          (Host.reduceAdd (Host.exp
            (subf (addf s (broadcastInDim S100000x40 ![0, 1] bcast_S1x40_S100000x40_0_1 (broadcastInDim S1x40 ![1] bcast_S40_S1x40_1 b)))
              (broadcastInDim S100000x40 ![0, 1] bcast_S100000x1_S100000x40_0_1 (broadcastInDim S100000x1 ![0] bcast_S100000_S100000x1_0
                (maximumf (broadcastInDim S100000 ![] bcast_S_S100000 (constant S_ .f32 0xFF800000#32))
                  (Host.reduce FloatOps.maximumf (addf s (broadcastInDim S100000x40 ![0, 1] bcast_S1x40_S100000x40_0_1 (broadcastInDim S1x40 ![1] bcast_S40_S1x40_1 b)))
                    (constant S_ .f32 0xFF800000#32) reducesTo_S100000x40_S100000_d1 h_S_))))))
            (constant S_ .f32 0x00000000#32) reducesTo_S100000x40_S100000_d1 h_S_))))
      = logSoftmax s b := by
  have hz : ∀ (p : Fin 100000) (j : Fin 40),
      addf (F := Ideal) s (broadcastInDim S100000x40 ![0, 1] bcast_S1x40_S100000x40_0_1 (broadcastInDim S1x40 ![1] bcast_S40_S1x40_1 b)) (ix2 p j)
        = scoreRow s b p j := fun p j => (ValueIdx.addf_apply _ _ (ix2 p j)).trans (congrArg (s (ix2 p j) + ·) (biasRows40_apply b p j))
  generalize addf (F := Ideal) s (broadcastInDim S100000x40 ![0, 1] bcast_S1x40_S100000x40_0_1 (broadcastInDim S1x40 ![1] bcast_S40_S1x40_1 b)) = z at hz ⊢
  have hrow : ∀ p : Fin 100000, (fun k : Fin 40 => z (ix2 p k)) = scoreRow s b p := fun p => funext fun k => hz p k
  funext i
  obtain ⟨p, q, rfl⟩ : ∃ (p : Fin 100000) (q : Fin 40), i = ix2 p q := ⟨i 0, i 1, eq_ix2 i⟩
  refine (ref_tail _ p q).trans ?_
  rw [logSoftmax_apply]
  unfold rowLogSoftmax
  rw [← hrow p]
  refine congrArg₂ (· - ·) (ref_shift z p q) (congrArg Ideal.log (Finset.sum_congr rfl fun k _ => congrArg Ideal.exp (ref_shift z p k)))

end Cert.ReferenceIdeal.Stages

end
-- ==== Proof.RefValue.lean ====
/-
  The reference's result as the network function of its arguments. Its fifty-eight host operations are cut into five
  stretches — the first matrix product; the aggregation over the edges; bias, clamp and the second matrix product;
  the aggregation again; bias and log-softmax — and the buffer contents are followed from stretch to stretch: each
  stretch's result is the model's stage of the contents it started from, and no stretch writes an argument.
-/
import proofs.«132533_j27427661152789_1_alg».proof.Proof.RefRun
import proofs.«132533_j27427661152789_1_alg».proof.Proof.RefStages
import proofs.«132533_j27427661152789_1_alg».proof.Proof.Model
import Idealize.ShloMosaic.Lib.Pipeline.Frame

set_option maxRecDepth 16384

noncomputable section

namespace Cert.ReferenceIdeal.RefValue

open Cert.ReferenceIdeal Cert.ReferenceIdeal.Gen Cert.ReferenceIdeal.Stages
open Idealize.ShloMosaic Idealize.ShloMosaic.TcCoe Idealize.SL.Sem Idealize.ShloMosaic.StableHlo Cert.Gcn

/-! ## The five stretches -/

variable {F : FTy → Type} [FloatOps F]

abbrev opsA : List (HloOp τ sig (Elt F)) :=
  [ binary main_arg0 main_arg2 main_v0 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)) ]

abbrev opsB : List (HloOp τ sig (Elt F)) :=
  [ unary main_arg1 main_v1 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_arg7 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v4 (broadcastInDim S1600000 ![] bcast_S_S1600000 : (⟨S_, .i32⟩ : BufTy).Contents (Elt F) → (⟨S1600000, .i32⟩ : BufTy).Contents (Elt F)),
    binary main_arg7 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_arg7 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_v0 main_v7 main_v8 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v1 main_v9 (broadcastInDim S1600000x64 ![0, 1] bcast_S1600000x1_S1600000x64_0_1 : (⟨S1600000x1, .f32⟩ : BufTy).Contents (Elt F) → (⟨S1600000x64, .f32⟩ : BufTy).Contents (Elt F)),
    binary main_v9 main_v8 main_v10 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg6 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

abbrev opsCD : List (HloOp τ sig (Elt F)) :=
  [ unary main_arg3 main_v14 (broadcastInDim S1x64 ![1] bcast_S64_S1x64_1 : (⟨S64, .f32⟩ : BufTy).Contents (Elt F) → (⟨S1x64, .f32⟩ : BufTy).Contents (Elt F)),
    unary main_v14 main_v15 (broadcastInDim S100000x64 ![0, 1] bcast_S1x64_S100000x64_0_1 : (⟨S1x64, .f32⟩ : BufTy).Contents (Elt F) → (⟨S100000x64, .f32⟩ : BufTy).Contents (Elt F)),
    binary main_v13 main_v15 main_v16 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v16) (TRef.of (T := ⟨S100000x64, .f32⟩) main_call0_v0) (TRef.of (T := ⟨S100000x64, .f32⟩) main_v17) maximumf,
    binary main_v17 main_arg4 main_v18 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]

abbrev opsE : List (HloOp τ sig (Elt F)) :=
  [ unary main_arg1 main_v19 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v20 (broadcastInDim S1600000 ![] bcast_S_S1600000 : (⟨S_, .i32⟩ : BufTy).Contents (Elt F) → (⟨S1600000, .i32⟩ : BufTy).Contents (Elt F)),
    binary main_arg7 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v22 (broadcastInDim S1600000 ![] bcast_S_S1600000 : (⟨S_, .i32⟩ : BufTy).Contents (Elt F) → (⟨S1600000, .i32⟩ : BufTy).Contents (Elt F)),
    binary main_arg7 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_arg7 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v18 main_v25 main_v26 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v19 main_v27 (broadcastInDim S1600000x40 ![0, 1] bcast_S1600000x1_S1600000x40_0_1 : (⟨S1600000x1, .f32⟩ : BufTy).Contents (Elt F) → (⟨S1600000x40, .f32⟩ : BufTy).Contents (Elt F)),
    binary main_v27 main_v26 main_v28 (mulf : (⟨S1600000x40, .f32⟩ : BufTy).Contents (Elt F) → (⟨S1600000x40, .f32⟩ : BufTy).Contents (Elt F) → (⟨S1600000x40, .f32⟩ : BufTy).Contents (Elt F)),
    nullary main_cst_3 (constant S_ .f32 0x00000000#32),
    unary main_cst_3 main_v29 (broadcastInDim S100000x40 ![] bcast_S_S100000x40 : (⟨S_, .f32⟩ : BufTy).Contents (Elt F) → (⟨S100000x40, .f32⟩ : BufTy).Contents (Elt F)),
    unary main_arg6 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)) ]

abbrev opsFG : List (HloOp τ sig (Elt F)) :=
  [ unary main_arg5 main_v32 (broadcastInDim S1x40 ![1] bcast_S40_S1x40_1 : (⟨S40, .f32⟩ : BufTy).Contents (Elt F) → (⟨S1x40, .f32⟩ : BufTy).Contents (Elt F)),
    unary main_v32 main_v33 (broadcastInDim S100000x40 ![0, 1] bcast_S1x40_S100000x40_0_1 : (⟨S1x40, .f32⟩ : BufTy).Contents (Elt F) → (⟨S100000x40, .f32⟩ : BufTy).Contents (Elt F)),
    binary main_v31 main_v33 main_v34 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v34) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v34) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v35) subf ]

/-- The program's operation list is the five stretches in order. -/
theorem ops_split : (Cert.ReferenceIdeal.ValueP.ops (F := F)) = opsA ++ (opsB ++ (opsCD ++ (opsE ++ opsFG))) := rfl

/-- The reference's closing stretch as one function of the aggregated scores and the bias, at any float values. -/
def headHost (s : (⟨S100000x40, .f32⟩ : BufTy).Contents (Elt F)) (b : (⟨S40, .f32⟩ : BufTy).Contents (Elt F)) : (⟨S100000x40, .f32⟩ : BufTy).Contents (Elt F) :=
  subf
        (subf (addf s (broadcastInDim S100000x40 ![0, 1] bcast_S1x40_S100000x40_0_1 (broadcastInDim S1x40 ![1] bcast_S40_S1x40_1 b)))
          (broadcastInDim S100000x40 ![0, 1] bcast_S100000x1_S100000x40_0_1 (broadcastInDim S100000x1 ![0] bcast_S100000_S100000x1_0
            (maximumf (broadcastInDim S100000 ![] bcast_S_S100000 (constant S_ .f32 0xFF800000#32))
              (Host.reduce FloatOps.maximumf (addf s (broadcastInDim S100000x40 ![0, 1] bcast_S1x40_S100000x40_0_1 (broadcastInDim S1x40 ![1] bcast_S40_S1x40_1 b)))
                (constant S_ .f32 0xFF800000#32) reducesTo_S100000x40_S100000_d1 h_S_)))))
        (broadcastInDim S100000x40 ![0, 1] bcast_S100000x1_S100000x40_0_1 (Host.log (broadcastInDim S100000x1 ![0] bcast_S100000_S100000x1_0
          (Host.reduceAdd (Host.exp
            (subf (addf s (broadcastInDim S100000x40 ![0, 1] bcast_S1x40_S100000x40_0_1 (broadcastInDim S1x40 ![1] bcast_S40_S1x40_1 b)))
              (broadcastInDim S100000x40 ![0, 1] bcast_S100000x1_S100000x40_0_1 (broadcastInDim S100000x1 ![0] bcast_S100000_S100000x1_0
                (maximumf (broadcastInDim S100000 ![] bcast_S_S100000 (constant S_ .f32 0xFF800000#32))
                  (Host.reduce FloatOps.maximumf (addf s (broadcastInDim S100000x40 ![0, 1] bcast_S1x40_S100000x40_0_1 (broadcastInDim S1x40 ![1] bcast_S40_S1x40_1 b)))
                    (constant S_ .f32 0xFF800000#32) reducesTo_S100000x40_S100000_d1 h_S_))))))
            (constant S_ .f32 0x00000000#32) reducesTo_S100000x40_S100000_d1 h_S_))))

/-- The reference's bias, clamp and second matrix product as one function, at any float values. -/
def hiddenHost (s : (⟨S100000x64, .f32⟩ : BufTy).Contents (Elt F)) (b : (⟨S64, .f32⟩ : BufTy).Contents (Elt F)) (w : (⟨S64x40, .f32⟩ : BufTy).Contents (Elt F)) : (⟨S100000x40, .f32⟩ : BufTy).Contents (Elt F) :=
  Host.dotGeneral dot_S100000x64_S64x40_S100000x40_1_0_0_1_n_n none
    (maximumf (addf s (broadcastInDim S100000x64 ![0, 1] bcast_S1x64_S100000x64_0_1 (broadcastInDim S1x64 ![1] bcast_S64_S1x64_1 b)))
      (broadcastInDim S100000x64 ![] bcast_S_S100000x64 (constant S_ .f32 0x00000000#32))) w

/-- Reading a typed reference's contents back at the value's type undoes storing them at the buffer's type. -/
theorem ofBuf_toBuf {Val : EltTy → Type} {T : BufTy} (x : TRef sig T) (v : T.Contents Val) : x.ofBuf (x.toBuf v) = v := by
  obtain ⟨r, h, _, _⟩ := x
  subst h
  rfl

/-- At the result buffer and at the scores' buffer the value's type is the buffer's own. -/
theorem toBuf_v35 (v : (⟨S100000x40, .f32⟩ : BufTy).Contents (Elt F)) :
    (TRef.of (T := ⟨S100000x40, .f32⟩) main_v35).toBuf v = v := rfl
theorem ofBuf_v34 (v : (⟨S100000x40, .f32⟩ : BufTy).Contents (Elt F)) :
    (TRef.of (T := ⟨S100000x40, .f32⟩) main_v34).ofBuf v = v := rfl

/-! ## What each stretch leaves in its result, from any contents -/

/-- The first matrix product. -/
theorem stageA (V : Valuation τ sig (Elt Ideal)) :
    after (opsA (F := Ideal)) V (Proc.devRef .tc main_v0) = dense1 (V (Proc.devRef .tc main_arg0)) (V (Proc.devRef .tc main_arg2)) := by
  after_results_simp
  exact ref_dense1 _ _

/-- The aggregation of the hidden features. -/
theorem stageB (V : Valuation τ sig (Elt Ideal)) :
    after (opsB (F := Ideal)) V (Proc.devRef .tc main_v13) = spmm64 (F := Ideal) (V (Proc.devRef .tc main_v0)) (V (Proc.devRef .tc main_arg1)) (V (Proc.devRef .tc main_arg6)) (V (Proc.devRef .tc main_arg7)) := by
  after_results_simp
  exact spmm64_ref _ _ _ _

/-- Bias, clamp and the second matrix product, at any float values. -/
theorem stageCD_host (V : Valuation τ sig (Elt F)) :
    after opsCD V (Proc.devRef .tc main_v18) = hiddenHost (V (Proc.devRef .tc main_v13)) (V (Proc.devRef .tc main_arg3)) (V (Proc.devRef .tc main_arg4)) := by
  after_results_simp
  simp only [TRef.ofBuf, TRef.toBuf, cast_eq]
  rfl

/-- On the extended reals it is the model's second dense layer. -/
theorem stageCD (V : Valuation τ sig (Elt Ideal)) :
    after (opsCD (F := Ideal)) V (Proc.devRef .tc main_v18) = dense2 (V (Proc.devRef .tc main_v13)) (V (Proc.devRef .tc main_arg3)) (V (Proc.devRef .tc main_arg4)) :=
  (stageCD_host V).trans (ref_dense2 _ _ _)

/-- The aggregation of the class scores. -/
theorem stageE (V : Valuation τ sig (Elt Ideal)) :
    after (opsE (F := Ideal)) V (Proc.devRef .tc main_v31) = spmm40 (F := Ideal) (V (Proc.devRef .tc main_v18)) (V (Proc.devRef .tc main_arg1)) (V (Proc.devRef .tc main_arg6)) (V (Proc.devRef .tc main_arg7)) := by
  after_results_simp
  exact spmm40_ref _ _ _ _

/-- Bias and the reference's log-softmax steps, at any float values. -/
theorem stageFG_host (V : Valuation τ sig (Elt F)) :
    after opsFG V (Proc.devRef .tc main_v35) = headHost (V (Proc.devRef .tc main_v31)) (V (Proc.devRef .tc main_arg5)) := by
  after_results_simp
  simp only [ofBuf_toBuf]
  rw [toBuf_v35, ofBuf_v34]
  rfl

/-- On the extended reals they are the model's row-wise log-softmax. -/
theorem stageFG (V : Valuation τ sig (Elt Ideal)) :
    after (opsFG (F := Ideal)) V (Proc.devRef .tc main_v35) = logSoftmax (V (Proc.devRef .tc main_v31)) (V (Proc.devRef .tc main_arg5)) :=
  (stageFG_host V).trans (ref_logSoftmax _ _)

/-! ## No stretch writes an argument it or a later stretch reads -/

theorem keepA_arg1 (V : Valuation τ sig (Elt Ideal)) : after (opsA (F := Ideal)) V (Proc.devRef .tc main_arg1) = V (Proc.devRef .tc main_arg1) := by after_results_simp
theorem keepA_arg3 (V : Valuation τ sig (Elt Ideal)) : after (opsA (F := Ideal)) V (Proc.devRef .tc main_arg3) = V (Proc.devRef .tc main_arg3) := by after_results_simp
theorem keepA_arg4 (V : Valuation τ sig (Elt Ideal)) : after (opsA (F := Ideal)) V (Proc.devRef .tc main_arg4) = V (Proc.devRef .tc main_arg4) := by after_results_simp
theorem keepA_arg5 (V : Valuation τ sig (Elt Ideal)) : after (opsA (F := Ideal)) V (Proc.devRef .tc main_arg5) = V (Proc.devRef .tc main_arg5) := by after_results_simp
theorem keepA_arg6 (V : Valuation τ sig (Elt Ideal)) : after (opsA (F := Ideal)) V (Proc.devRef .tc main_arg6) = V (Proc.devRef .tc main_arg6) := by after_results_simp
theorem keepA_arg7 (V : Valuation τ sig (Elt Ideal)) : after (opsA (F := Ideal)) V (Proc.devRef .tc main_arg7) = V (Proc.devRef .tc main_arg7) := by after_results_simp
theorem keepB_arg1 (V : Valuation τ sig (Elt Ideal)) : after (opsB (F := Ideal)) V (Proc.devRef .tc main_arg1) = V (Proc.devRef .tc main_arg1) := by after_results_simp
theorem keepB_arg3 (V : Valuation τ sig (Elt Ideal)) : after (opsB (F := Ideal)) V (Proc.devRef .tc main_arg3) = V (Proc.devRef .tc main_arg3) := by after_results_simp
theorem keepB_arg4 (V : Valuation τ sig (Elt Ideal)) : after (opsB (F := Ideal)) V (Proc.devRef .tc main_arg4) = V (Proc.devRef .tc main_arg4) := by after_results_simp
theorem keepB_arg5 (V : Valuation τ sig (Elt Ideal)) : after (opsB (F := Ideal)) V (Proc.devRef .tc main_arg5) = V (Proc.devRef .tc main_arg5) := by after_results_simp
theorem keepB_arg6 (V : Valuation τ sig (Elt Ideal)) : after (opsB (F := Ideal)) V (Proc.devRef .tc main_arg6) = V (Proc.devRef .tc main_arg6) := by after_results_simp
theorem keepB_arg7 (V : Valuation τ sig (Elt Ideal)) : after (opsB (F := Ideal)) V (Proc.devRef .tc main_arg7) = V (Proc.devRef .tc main_arg7) := by after_results_simp
theorem keepCD_arg1 (V : Valuation τ sig (Elt Ideal)) : after (opsCD (F := Ideal)) V (Proc.devRef .tc main_arg1) = V (Proc.devRef .tc main_arg1) := by after_results_simp
theorem keepCD_arg5 (V : Valuation τ sig (Elt Ideal)) : after (opsCD (F := Ideal)) V (Proc.devRef .tc main_arg5) = V (Proc.devRef .tc main_arg5) := by after_results_simp
theorem keepCD_arg6 (V : Valuation τ sig (Elt Ideal)) : after (opsCD (F := Ideal)) V (Proc.devRef .tc main_arg6) = V (Proc.devRef .tc main_arg6) := by after_results_simp
theorem keepCD_arg7 (V : Valuation τ sig (Elt Ideal)) : after (opsCD (F := Ideal)) V (Proc.devRef .tc main_arg7) = V (Proc.devRef .tc main_arg7) := by after_results_simp
theorem keepE_arg5 (V : Valuation τ sig (Elt Ideal)) : after (opsE (F := Ideal)) V (Proc.devRef .tc main_arg5) = V (Proc.devRef .tc main_arg5) := by after_results_simp

/-! ## The whole line -/

/-- The fold of the reference's operations at its result buffer is the network function of the launch contents. -/
theorem result_eq (m : (ℓ : Loc nD τ sig) → Buf (Elt Ideal) ℓ) (c : Dev nD) :
    after (Cert.ReferenceIdeal.ValueP.ops (F := Ideal)) (launchContents m c) (Proc.devRef .tc main_v35)
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split (F := Ideal)]
  simp only [StableHlo.after_append]
  rw [stageFG, stageE, keepE_arg5, stageCD, keepCD_arg1, keepCD_arg5, keepCD_arg6, keepCD_arg7,
    stageB, keepB_arg1, keepB_arg3, keepB_arg4, keepB_arg5, keepB_arg6, keepB_arg7,
    stageA, keepA_arg1, keepA_arg3, keepA_arg4, keepA_arg5, keepA_arg6, keepA_arg7]
  rfl

end Cert.ReferenceIdeal.RefValue

end
-- ==== Proof.lean ====
/-
  A two-layer graph convolution with a log-softmax head, tiled over the 100000 nodes in three kernel calls, against
  its plain reference. On the extended reals the two are one function of the eight arguments: x · W1; aggregation of
  the rows over the weighted edges; bias, clamp at zero and the second weight; aggregation again; bias and row-wise
  log-softmax. The kernel computes the three dense stages tile by tile (narrowing the matrix operands is the
  identity here, and every tile's accumulator starts at zero), the reference computes them whole; the aggregation
  is the same chain of host operations in both and is never opened. No law of arithmetic is used beyond the
  matrix products and row reductions being plain sums and folds, so the inputs' finiteness is not needed.
  The idealization rewrote nothing, so the kernel's idealized text is its own text.
-/
import proofs.«132533_j27427661152789_1_alg».proof.Defs
import proofs.«132533_j27427661152789_1_alg».proof.Proof.Gen.Kernel
import proofs.«132533_j27427661152789_1_alg».proof.Proof.Gen.Kernel.Frame
import proofs.«132533_j27427661152789_1_alg».proof.Proof.Gen.KernelIdeal
import proofs.«132533_j27427661152789_1_alg».proof.Proof.Gen.KernelIdeal.Frame
import proofs.«132533_j27427661152789_1_alg».proof.Proof.Gen.ReferenceIdeal
import proofs.«132533_j27427661152789_1_alg».proof.Proof.Gen.Pre_finite_inputs
import proofs.«132533_j27427661152789_1_alg».proof.Proof.KRun
import proofs.«132533_j27427661152789_1_alg».proof.Proof.KValue
import proofs.«132533_j27427661152789_1_alg».proof.Proof.RefRun
import proofs.«132533_j27427661152789_1_alg».proof.Proof.RefValue
import proofs.«132533_j27427661152789_1_alg».proof.Proof.Model
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: it runs, and writes no argument. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten when the kernel was idealized. -/
theorem preserves : Cert.preserves_Kernel_KernelIdeal := trivial

/-- Both programs end with the network function of the (agreeing) arguments in their result. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.W5_v30 m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
